-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x1024x256 .f32) (main_arg1 : IVec S32 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S32x1024x256 : Shape := ⟨3, ![32, 1024, 256]⟩
abbrev S32 : Shape := ⟨1, ![32]⟩
abbrev S256x256 : Shape := ⟨2, ![256, 256]⟩
abbrev S256 : Shape := ⟨1, ![256]⟩
abbrev S256x768 : Shape := ⟨2, ![256, 768]⟩
abbrev S768 : Shape := ⟨1, ![768]⟩
abbrev S2x1024x256 : Shape := ⟨3, ![2, 1024, 256]⟩
abbrev S1 : Shape := ⟨1, ![1]⟩
abbrev S1x1024x256 : Shape := ⟨3, ![1, 1024, 256]⟩
abbrev S1024x256 : Shape := ⟨2, ![1024, 256]⟩
abbrev S1024x768 : Shape := ⟨2, ![1024, 768]⟩
abbrev S1x768 : Shape := ⟨2, ![1, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 6
  | .smem => 1
  | _ => 0

abbrev bufTy : (tb : Table) → Fin (tcTables nBuf tb) → BufTy
  | .hbm, ⟨0, _⟩ => ⟨S32x1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x768, .f32⟩
  | .hbm, ⟨8, _⟩ => ⟨S256x768, .bf16⟩
  | .hbm, ⟨9, _⟩ => ⟨S768, .f32⟩
  | .hbm, ⟨10, _⟩ => ⟨S32x1024x256, .bf16⟩
  | .hbm, ⟨11, _⟩ => ⟨S32x1024x256, .f32⟩
  | .local _ .vmem, ⟨0, _⟩ => ⟨S2x1024x256, .bf16⟩
  | .local _ .vmem, ⟨1, _⟩ => ⟨S2x1024x256, .bf16⟩
  | .local _ .vmem, ⟨2, _⟩ => ⟨S256x768, .bf16⟩
  | .local _ .vmem, ⟨3, _⟩ => ⟨S768, .f32⟩
  | .local _ .vmem, ⟨4, _⟩ => ⟨S2x1024x256, .f32⟩
  | .local _ .vmem, ⟨5, _⟩ => ⟨S2x1024x256, .f32⟩
  | .local _ .smem, ⟨0, _⟩ => ⟨S32, .i32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v4 : BitVec 32 := Scalar.muli arg0 c2_i32
  let v5 : BitVec 32 := Scalar.addi v4 c0_i32
  let v6 : Index := Scalar.indexCast v5
  ![v6.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S256x256_S256x256_S256x256_S256x768_d1 : Shape.Concatenates [S256x256, S256x256, S256x256] S256x768 1
  bitsLt_bf16_f32 : FTy.bits .bf16 < FTy.bits .f32
  concatenates_S256_S256_S256_S768_d0 : Shape.Concatenates [S256, S256, S256] S768 0
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S768 : S768.ShapeCasts S768
  numel1_S1 : S1.numel = 1
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  shapeCasts_S1024x256_S1x1024x256 : S1024x256.ShapeCasts S1x1024x256
  inb_S2x1024x256_S1x1024x256_1_0_0 : ∀ a, (![1, 0, 0] : Fin 3 → Nat) a + S1x1024x256.size a ≤ S2x1024x256.size a
  dot_S1024x256_S256x768_S1024x768_1_0_0_1_n_n_wf : DotDims.WF S1024x256 S256x768 S1024x768 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  k0_off1_inb : ∀ i : grid0.Coords, ∀ (r : Fin 2), ∀ a, (k0_off1 i (BitVec.ofNat 32 r.val)) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S32x1024x256.size a
  hwx0_0 : ∀ i : grid0.Coords, EltTy.bits .bf16 = 32 ∨ (Rect.block (s := S32x1024x256) S2x1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x256.size a ≤ S32x1024x256.size a
  hwx0_3 : ∀ i : grid0.Coords, EltTy.bits .f32 = 32 ∨ (Rect.block (s := S32x1024x256) S2x1024x256.size (cc0_transform_3 i) (hinb0_3 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev spec0_0 : Pipeline.WinSpec sig grid0.rank :=
  Pipeline.WinSpec.ofSpec (Memref.whole main_v3) S2x1024x256.size reads0_0 false false 2 stage0_0 sem0_0 nbuf0_0 hstage0_0

abbrev spec0_1 : Pipeline.WinSpec sig grid0.rank :=
  Pipeline.WinSpec.ofSpec (Memref.whole main_v1) S256x768.size reads0_1 false true 1 stage0_1 sem0_1 nbuf0_1 hstage0_1

abbrev spec0_2 : Pipeline.WinSpec sig grid0.rank :=
  Pipeline.WinSpec.ofSpec (Memref.whole main_v2) S768.size reads0_2 false true 1 stage0_2 sem0_2 nbuf0_2 hstage0_2

abbrev spec0_3 : Pipeline.WinSpec sig grid0.rank :=
  Pipeline.WinSpec.ofSpec (Memref.whole main_v4) S2x1024x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x1024x256 : Shape := ⟨3, ![32, 1024, 256]⟩
abbrev S32 : Shape := ⟨1, ![32]⟩
abbrev S256x256 : Shape := ⟨2, ![256, 256]⟩
abbrev S256 : Shape := ⟨1, ![256]⟩
abbrev S1x1x256 : Shape := ⟨3, ![1, 1, 256]⟩
abbrev S32x1024x1024 : Shape := ⟨3, ![32, 1024, 1024]⟩
abbrev S1024 : Shape := ⟨1, ![1024]⟩
abbrev S1x1x1024 : Shape := ⟨3, ![1, 1, 1024]⟩
abbrev S32x1x1 : Shape := ⟨3, ![32, 1, 1]⟩
abbrev S32x1x1024 : Shape := ⟨3, ![32, 1, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S32x1024x256, .f32⟩
  | .hbm, ⟨9, _⟩ => ⟨S1x1x256, .f32⟩
  | .hbm, ⟨10, _⟩ => ⟨S32x1024x256, .f32⟩
  | .hbm, ⟨11, _⟩ => ⟨S32x1024x256, .f32⟩
  | .hbm, ⟨12, _⟩ => ⟨S32x1024x256, .f32⟩
  | .hbm, ⟨13, _⟩ => ⟨S1x1x256, .f32⟩
  | .hbm, ⟨14, _⟩ => ⟨S32x1024x256, .f32⟩
  | .hbm, ⟨15, _⟩ => ⟨S32x1024x256, .f32⟩
  | .hbm, ⟨16, _⟩ => ⟨S32x1024x256, .f32⟩
  | .hbm, ⟨17, _⟩ => ⟨S1x1x256, .f32⟩
  | .hbm, ⟨18, _⟩ => ⟨S32x1024x256, .f32⟩
  | .hbm, ⟨19, _⟩ => ⟨S32x1024x256, .f32⟩
  | .hbm, ⟨20, _⟩ => ⟨S32x1024x1024, .f32⟩
  | .hbm, ⟨21, _⟩ => ⟨S1024, .i32⟩
  | .hbm, ⟨22, _⟩ => ⟨S1x1x1024, .i32⟩
  | .hbm, ⟨23, _⟩ => ⟨S32x1x1, .i32⟩
  | .hbm, ⟨24, _⟩ => ⟨S32x1x1024, .i32⟩
  | .hbm, ⟨25, _⟩ => ⟨S32x1x1024, .i32⟩
  | .hbm, ⟨26, _⟩ => ⟨S32x1x1024, .i1⟩
  | .hbm, ⟨27, _⟩ => ⟨S_, .f32⟩
  | .hbm, ⟨28, _⟩ => ⟨S_, .f32⟩
  | .hbm, ⟨29, _⟩ => ⟨S32x1024x1024, .i1⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | .hbm, ⟨37, _⟩ => ⟨S32x1024x1, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S_, .f32⟩
  | .hbm, ⟨42, _⟩ => ⟨S32x1024, .f32⟩
  | .hbm, ⟨43, _⟩ => ⟨S32x1024x1, .f32⟩
  | .hbm, ⟨44, _⟩ => ⟨S32x1024x1024, .f32⟩
  | .hbm, ⟨45, _⟩ => ⟨S32x1024x1024, .f32⟩
  | .hbm, ⟨46, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S1024_S1x1x1024_2 : S1024.BroadcastsInDim S1x1x1024 (![2] : Fin 1 → Fin S1x1x1024.rank)
  bcast_S32_S32x1x1_0 : S32.BroadcastsInDim S32x1x1 (![0] : Fin 1 → Fin S32x1x1.rank)
  bcast_S1x1x1024_S32x1x1024_0_1_2 : S1x1x1024.BroadcastsInDim S32x1x1024 (![0, 1, 2] : Fin 3 → Fin S32x1x1024.rank)
  bcast_S32x1x1_S32x1x1024_0_1_2 : S32x1x1.BroadcastsInDim S32x1x1024 (![0, 1, 2] : Fin 3 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x256_S256x256_S32x1024x256_2_0_01_1_n_n_wf : DotDims.WF S32x1024x256 S256x256 S32x1024x256 [2] [0] [0, 1] [1] [] []
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf
def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.BitsEntry.lean ====
/-
  The program up to its one pipelined region, and what the region is entered with.

  Before the region the host concatenates the three projection matrices side by side and the three biases end to end
  and changes two arrays' float format; `V` is every buffer's contents after those four operations. The length words
  are a table the pipeline prefetches: `tbl` is its contents at the region's entry, the pipeline runs at those contents
  (`cfgM`), and the body holds half of the table's buffer to read words from. `iblk` is a window's block at a grid
  point, read off its array as the region finds it. From a run of the whole program that ends with every array of the
  pipeline at what the proof data say and every other buffer as the region found it, the eight argument arrays end as
  launched (`frame_of`).
-/
import proofs.«424928_j84799834293007_3_alg».proof.Proof.Gen.Kernel.Launch
import proofs.«424928_j84799834293007_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the four host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The prefetched table of length words -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, so every contents of it is admissible. -/
abbrev adm : (pcfg0 (F := F)).Adm := ⟨tbl m, trivial⟩
/-- The pipeline at the table's contents. -/
abbrev cfgM : Pipeline.Cfg sig Λ₀ := cfg0 (adm m)

/-- The table as the body is handed it: its whole buffer as a memref. -/
abbrev tbM : Memref sig .tc .smem S32 .i32 := Memref.whole main_arg1
abbrev htbM : tbM.IsWhole := Memref.isWhole_whole _

/-- The table's buffer on core `c`: its contents type, and it held at half the full share at `f` (read-only: the
    pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The table's half the region hands the body. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The current staging memrefs and the body at a point -/

abbrev st0 (t : Fin (cfgM m).N) : Memref sig .tc .vmem S2x1024x256 .bf16 := spec0_0.stage ((cfgM m).slots t 0)
abbrev hst0 (t : Fin (cfgM m).N) : (st0 m t).IsWhole := hstage0_0 (((cfgM m).slots t 0).cast nbuf0_0)
abbrev st1 (t : Fin (cfgM m).N) : Memref sig .tc .vmem S256x768 .bf16 := spec0_1.stage ((cfgM m).slots t 1)
abbrev hst1 (t : Fin (cfgM m).N) : (st1 m t).IsWhole := hstage0_1 (((cfgM m).slots t 1).cast nbuf0_1)
abbrev st2 (t : Fin (cfgM m).N) : Memref sig .tc .vmem S768 .f32 := spec0_2.stage ((cfgM m).slots t 2)
abbrev hst2 (t : Fin (cfgM m).N) : (st2 m t).IsWhole := hstage0_2 (((cfgM m).slots t 2).cast nbuf0_2)
abbrev st3 (t : Fin (cfgM m).N) : Memref sig .tc .vmem S2x1024x256 .f32 := spec0_3.stage ((cfgM m).slots t 3)
abbrev hst3 (t : Fin (cfgM m).N) : (st3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0__fused_kernel (grid0.coords t) tbM htbM (st0 m t) (hst0 m t) (st1 m t) (hst1 m t) (st2 m t) (hst2 m t) (st3 m t) (hst3 m t)

/-! ## The arguments end as launched -/

/-- From a run that ends with every array of the pipeline at what the proof data say and every other unscoped buffer
    as the region found it: none of the eight arguments is an array of the pipeline, and no host operation writes
    one, so each ends as launched. -/
theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c),
      ((h c).2 main_arg7 (Pipeline.mem_restRefs_of (win := spec0) main_arg7 (by decide) (by decide))).trans (V_main_arg7 m c)⟩) h

end Cert.Kernel.Frm

end
-- ==== Proof.BitsBody.lean ====
/-
  The kernel body's run on whole staging buffers.

  At a grid point the body loads the whole weight block and the whole bias block, and for each of the two batch
  elements of the block reads the element's length word from the table, loads the element's rows, and stores the
  element's attention output into the element's half of the output block. The output block therefore ends as its two
  stores (`out3`), a function of the three input blocks and the table; the input blocks and the table are only read.
-/
import proofs.«424928_j84799834293007_3_alg».proof.Proof.BitsEntry

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The first and the second batch element of a block of two, the whole weight block and the whole bias block. -/
abbrev r0 : Rect S2x1024x256 := Rect.unit (s := S2x1024x256) ![0, 0, 0] S1x1024x256.size inb_S2x1024x256_S1x1024x256_0_0_0
abbrev r1 : Rect S2x1024x256 := Rect.unit (s := S2x1024x256) ![1, 0, 0] S1x1024x256.size inb_S2x1024x256_S1x1024x256_1_0_0
abbrev rW : Rect S256x768 := Rect.unit (s := S256x768) ![0, 0] S256x768.size inb_S256x768_S256x768_0_0
abbrev rB : Rect S768 := Rect.unit (s := S768) ![0] S768.size inb_S768_S768_0

/-- The length word the body reads for batch element `r` of the block at grid coordinates `i`: word `2·i + r` of the table. -/
def word (c : Dev nD) (i : grid0.Coords) (r : Fin 2) (xt : TbBuf (F := F) c tbM) : Elt F .i32 :=
  tbM.view.readAt (Elt F) (Rect.unit (s := S32) (k0_off1 i (BitVec.ofNat 32 r.val)) S1.size (k0_off1_inb i r)).toLoadRect xt (Shape.Idx.first (numel1_S1.symm ▸ Nat.one_pos))

/-! ## What the body leaves in the output window's buffer -/

/-- The output block after the body, from the input blocks and the table: its two stores as pieces, last first. -/
def out3 (c : Dev nD) (i : grid0.Coords) (x0 : Vec F S2x1024x256 .bf16) (x1 : Vec F S256x768 .bf16) (x2 : Vec F S768 .f32) (xt : TbBuf (F := F) c tbM) : Vec F S2x1024x256 .f32 :=
  View.canon [⟨r1, k0_pay1 (k0_pay2 (View.ld x1 rW)) (k0_pay3 (View.ld x2 rB)) (word c i 1 xt) (View.ld x0 r1)⟩,
    ⟨r0, k0_pay4 (View.ld x1 rW) (View.ld x2 rB) (word c i 0 xt) (View.ld x0 r0)⟩]

/-- The two stores tile the block, so they cover it. -/
theorem cover3 (p1 p0 : Vec F S1x1024x256 .f32) (y : S2x1024x256.Idx) :
    ∃ pc ∈ ([⟨r1, p1⟩, ⟨r0, p0⟩] : List (View.Piece (Elt F) S2x1024x256 .f32)), y ∈ pc.1.set :=
  View.cover_of_tiled [⟨r1, p1⟩, ⟨r0, p0⟩] S1x1024x256.size (by rfl) y

/-! ## The body's triple -/

set_option maxHeartbeats 1000000 in
/-- The kernel body on whole staging memrefs — the inputs' at contents `x0`, `x1`, `x2`, the output's at anything, the
    table's half at `xt` — runs to the continuation holding the inputs and the table as they were and the output at
    `out3` of them. -/
theorem sound_kernel (c : Dev nD) (E : Set ℕ) (i : grid0.Coords)
    (arg2 : Memref sig .tc .vmem S2x1024x256 .bf16) (harg2 : arg2.IsWhole) (arg3 : Memref sig .tc .vmem S256x768 .bf16) (harg3 : arg3.IsWhole)
    (arg4 : Memref sig .tc .vmem S768 .f32) (harg4 : arg4.IsWhole) (arg5 : Memref sig .tc .vmem S2x1024x256 .f32) (harg5 : arg5.IsWhole)
    (x0 : Vec F S2x1024x256 .bf16) (x1 : Vec F S256x768 .bf16) (x2 : Vec F S768 .f32) (xt : TbBuf (F := F) c tbM) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tbPt c tbM xt
        ∗ (iprop(owns (c : Thread nD τ) arg2 fullShare x0 ∗ owns (c : Thread nD τ) arg3 fullShare x1 ∗ owns (c : Thread nD τ) arg4 fullShare x2
            ∗ owns (c : Thread nD τ) arg5 fullShare (out3 c i x0 x1 x2 xt) ∗ tbPt c tbM xt) -∗ K ⟨⟩))
      ⊢ wp frame (wpE (defs₀ (F := F)) Variants.none c none) E (cc0__fused_kernel i tbM htbM arg2 harg2 arg3 harg3 arg4 harg4 arg5 harg5) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%d3, %f3, -, H3⟩, HT, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _ _)
  iexact HT

end Cert.Kernel.Frm

end
-- ==== Proof.BitsRun.lean ====
/-
  The whole program's run.

  The proof data of the pipeline: each array is the region-entry contents; after the body at a grid point each input
  window's buffer holds its block and the output window's holds the body's two stores of the point's blocks; the
  region's invariant is the scratch-free rest together with the table's half. The body's run at a generic point gives
  the pipeline's obligation, the launch theorem for a pipeline with a prefetched table gives the run of the program,
  and the run's post read at the arguments is the frame.
-/
import proofs.«424928_j84799834293007_3_alg».proof.Proof.BitsBody

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 c (grid0.coords t) (iblk m c 0 t) (iblk m c 1 t) (iblk m c 2 t) (tbl m 0)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) :
    (dats m 0 c).after 3 t = out3 c (grid0.coords t) (iblk m c 0 t) (iblk m c 1 t) (iblk m c 2 t) (tbl m 0) := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t))

/-- The body at any point: the inputs' memrefs hold their blocks, so the body's run applies; the invariant's
    scratch-free part and the core's debt pass through unread, the table's half is lent to the run and returned. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) (tbl m 0) _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data say and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Frm

end
-- ==== Proof.IdealEntry.lean ====
/-
  The program up to its one pipelined region, and what the region is entered with.

  Before the region the host concatenates the three projection matrices side by side and the three biases end to end
  and changes two arrays' float format; `V` is every buffer's contents after those four operations. The length words
  are a table the pipeline prefetches: `tbl` is its contents at the region's entry, the pipeline runs at those contents
  (`cfgM`), and the body holds half of the table's buffer to read words from. `iblk` is a window's block at a grid
  point, read off its array as the region finds it. From a run of the whole program that ends with every array of the
  pipeline at what the proof data say and every other buffer as the region found it, the eight argument arrays end as
  launched (`frame_of`).
-/
import proofs.«424928_j84799834293007_3_alg».proof.Proof.Gen.KernelIdeal.Launch
import proofs.«424928_j84799834293007_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the four host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the four host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The prefetched table of length words -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, so every contents of it is admissible. -/
abbrev adm : (pcfg0 (F := F)).Adm := ⟨tbl m, trivial⟩
/-- The pipeline at the table's contents. -/
abbrev cfgM : Pipeline.Cfg sig Λ₀ := cfg0 (adm m)

/-- The table as the body is handed it: its whole buffer as a memref. -/
abbrev tbM : Memref sig .tc .smem S32 .i32 := Memref.whole main_arg1
abbrev htbM : tbM.IsWhole := Memref.isWhole_whole _

/-- The table's buffer on core `c`: its contents type, and it held at half the full share at `f` (read-only: the
    pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The table's half the region hands the body. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The current staging memrefs and the body at a point -/

abbrev st0 (t : Fin (cfgM m).N) : Memref sig .tc .vmem S2x1024x256 .bf16 := spec0_0.stage ((cfgM m).slots t 0)
abbrev hst0 (t : Fin (cfgM m).N) : (st0 m t).IsWhole := hstage0_0 (((cfgM m).slots t 0).cast nbuf0_0)
abbrev st1 (t : Fin (cfgM m).N) : Memref sig .tc .vmem S256x768 .bf16 := spec0_1.stage ((cfgM m).slots t 1)
abbrev hst1 (t : Fin (cfgM m).N) : (st1 m t).IsWhole := hstage0_1 (((cfgM m).slots t 1).cast nbuf0_1)
abbrev st2 (t : Fin (cfgM m).N) : Memref sig .tc .vmem S768 .f32 := spec0_2.stage ((cfgM m).slots t 2)
abbrev hst2 (t : Fin (cfgM m).N) : (st2 m t).IsWhole := hstage0_2 (((cfgM m).slots t 2).cast nbuf0_2)
abbrev st3 (t : Fin (cfgM m).N) : Memref sig .tc .vmem S2x1024x256 .f32 := spec0_3.stage ((cfgM m).slots t 3)
abbrev hst3 (t : Fin (cfgM m).N) : (st3 m t).IsWhole := hstage0_3 (((cfgM m).slots t 3).cast nbuf0_3)

/-- The kernel body at point `t`, on what the pipeline calls it with. -/
abbrev bodyAt (t : Fin (cfgM m).N) : Prog (TpuEff nD τ sig (Elt F) Λ₀ .tc) PUnit :=
  cc0__fused_kernel (grid0.coords t) tbM htbM (st0 m t) (hst0 m t) (st1 m t) (hst1 m t) (st2 m t) (hst2 m t) (st3 m t) (hst3 m t)

/-! ## The arguments end as launched -/

/-- From a run that ends with every array of the pipeline at what the proof data say and every other unscoped buffer
    as the region found it: none of the eight arguments is an array of the pipeline, and no host operation writes
    one, so each ends as launched. -/
theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c),
      ((h c).2 main_arg7 (Pipeline.mem_restRefs_of (win := spec0) main_arg7 (by decide) (by decide))).trans (V_main_arg7 m c)⟩) h

end Cert.KernelIdeal.Frm

end
-- ==== Proof.IdealBody.lean ====
/-
  The kernel body's run on whole staging buffers.

  At a grid point the body loads the whole weight block and the whole bias block, and for each of the two batch
  elements of the block reads the element's length word from the table, loads the element's rows, and stores the
  element's attention output into the element's half of the output block. The output block therefore ends as its two
  stores (`out3`), a function of the three input blocks and the table; the input blocks and the table are only read.
-/
import proofs.«424928_j84799834293007_3_alg».proof.Proof.IdealEntry

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The first and the second batch element of a block of two, the whole weight block and the whole bias block. -/
abbrev r0 : Rect S2x1024x256 := Rect.unit (s := S2x1024x256) ![0, 0, 0] S1x1024x256.size inb_S2x1024x256_S1x1024x256_0_0_0
abbrev r1 : Rect S2x1024x256 := Rect.unit (s := S2x1024x256) ![1, 0, 0] S1x1024x256.size inb_S2x1024x256_S1x1024x256_1_0_0
abbrev rW : Rect S256x768 := Rect.unit (s := S256x768) ![0, 0] S256x768.size inb_S256x768_S256x768_0_0
abbrev rB : Rect S768 := Rect.unit (s := S768) ![0] S768.size inb_S768_S768_0

/-- The length word the body reads for batch element `r` of the block at grid coordinates `i`: word `2·i + r` of the table. -/
def word (c : Dev nD) (i : grid0.Coords) (r : Fin 2) (xt : TbBuf (F := F) c tbM) : Elt F .i32 :=
  tbM.view.readAt (Elt F) (Rect.unit (s := S32) (k0_off1 i (BitVec.ofNat 32 r.val)) S1.size (k0_off1_inb i r)).toLoadRect xt (Shape.Idx.first (numel1_S1.symm ▸ Nat.one_pos))

/-! ## What the body leaves in the output window's buffer -/

/-- The output block after the body, from the input blocks and the table: its two stores as pieces, last first. -/
def out3 (c : Dev nD) (i : grid0.Coords) (x0 : Vec F S2x1024x256 .bf16) (x1 : Vec F S256x768 .bf16) (x2 : Vec F S768 .f32) (xt : TbBuf (F := F) c tbM) : Vec F S2x1024x256 .f32 :=
  View.canon [⟨r1, k0_pay1 (k0_pay2 (View.ld x1 rW)) (k0_pay3 (View.ld x2 rB)) (word c i 1 xt) (View.ld x0 r1)⟩,
    ⟨r0, k0_pay4 (View.ld x1 rW) (View.ld x2 rB) (word c i 0 xt) (View.ld x0 r0)⟩]

/-- The two stores tile the block, so they cover it. -/
theorem cover3 (p1 p0 : Vec F S1x1024x256 .f32) (y : S2x1024x256.Idx) :
    ∃ pc ∈ ([⟨r1, p1⟩, ⟨r0, p0⟩] : List (View.Piece (Elt F) S2x1024x256 .f32)), y ∈ pc.1.set :=
  View.cover_of_tiled [⟨r1, p1⟩, ⟨r0, p0⟩] S1x1024x256.size (by rfl) y

/-! ## The body's triple -/

set_option maxHeartbeats 1000000 in
/-- The kernel body on whole staging memrefs — the inputs' at contents `x0`, `x1`, `x2`, the output's at anything, the
    table's half at `xt` — runs to the continuation holding the inputs and the table as they were and the output at
    `out3` of them. -/
theorem sound_kernel (c : Dev nD) (E : Set ℕ) (i : grid0.Coords)
    (arg2 : Memref sig .tc .vmem S2x1024x256 .bf16) (harg2 : arg2.IsWhole) (arg3 : Memref sig .tc .vmem S256x768 .bf16) (harg3 : arg3.IsWhole)
    (arg4 : Memref sig .tc .vmem S768 .f32) (harg4 : arg4.IsWhole) (arg5 : Memref sig .tc .vmem S2x1024x256 .f32) (harg5 : arg5.IsWhole)
    (x0 : Vec F S2x1024x256 .bf16) (x1 : Vec F S256x768 .bf16) (x2 : Vec F S768 .f32) (xt : TbBuf (F := F) c tbM) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tbPt c tbM xt
        ∗ (iprop(owns (c : Thread nD τ) arg2 fullShare x0 ∗ owns (c : Thread nD τ) arg3 fullShare x1 ∗ owns (c : Thread nD τ) arg4 fullShare x2
            ∗ owns (c : Thread nD τ) arg5 fullShare (out3 c i x0 x1 x2 xt) ∗ tbPt c tbM xt) -∗ K ⟨⟩))
      ⊢ wp frame (wpE (defs₀ (F := F)) Variants.none c none) E (cc0__fused_kernel i tbM htbM arg2 harg2 arg3 harg3 arg4 harg4 arg5 harg5) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%d3, %f3, -, H3⟩, HT, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _ _)
  iexact HT

end Cert.KernelIdeal.Frm

end
-- ==== Proof.IdealRun.lean ====
/-
  The whole program's run.

  The proof data of the pipeline: each array is the region-entry contents; after the body at a grid point each input
  window's buffer holds its block and the output window's holds the body's two stores of the point's blocks; the
  region's invariant is the scratch-free rest together with the table's half. The body's run at a generic point gives
  the pipeline's obligation, the launch theorem for a pipeline with a prefetched table gives the run of the program,
  and the run's post read at the arguments is the frame.
-/
import proofs.«424928_j84799834293007_3_alg».proof.Proof.IdealBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 c (grid0.coords t) (iblk m c 0 t) (iblk m c 1 t) (iblk m c 2 t) (tbl m 0)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) :
    (dats m 0 c).after 3 t = out3 c (grid0.coords t) (iblk m c 0 t) (iblk m c 1 t) (iblk m c 2 t) (tbl m 0) := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t)
    ∗ owns (c : Thread nD τ) (st2 m t) fullShare ((dats m 0 c).after 2 t)
    ∗ owns (c : Thread nD τ) (st3 m t) fullShare ((dats m 0 c).after 3 t))

/-- The body at any point: the inputs' memrefs hold their blocks, so the body's run applies; the invariant's
    scratch-free part and the core's debt pass through unread, the table's half is lent to the run and returned. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) (tbl m 0) _)
  isplitl [H0]; · iexact H0
  isplitl [H1]; · iexact H1
  isplitl [H2]; · iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data say and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs to the end without a fault and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Frm

end
-- ==== Proof.Spec.lean ====
/-
  Masked softmax attention of one batch element, over the extended reals, in the two arrangements the two programs
  compute it in.

  From queries `q`, keys `k` and values `v` (each 1024 rows of 256 entries) and a length word `vl`:
  the score of row `n` against row `m` is the inner product of `q n` and `k m`; a column `m` whose index is not below
  `vl` (as signed 32-bit words) has its score replaced by the fill value -10^6; each row is shifted by its maximum,
  exponentiated, and the exponentials `pe` are summed to `rs`. One arrangement multiplies the unnormalised exponentials
  into `v` and divides the sum by `rs` (`outK`); the other divides each exponential by `rs` first and then sums the
  products (`outR`). `lin` is the affine projection that makes `q`, `k` and `v` from the input rows.
-/
import Idealize.ShloMosaic.PureOps.Ideal
import Idealize.ShloMosaic.Lib.ValueIdx

noncomputable section

namespace Cert.MaskedAttn

open Idealize.ShloMosaic

/-- The affine projection of the rows `x` by the matrix `w` and the bias `b`. -/
def lin (x : Fin 1024 → Fin 256 → EReal) (w : Fin 256 → Fin 256 → EReal) (b : Fin 256 → EReal) (n : Fin 1024) (j : Fin 256) : EReal :=
  (∑ c : Fin 256, x n c * w c j) + b j

/-- The score of query row `n` against key row `m`. -/
def sc (q k : Fin 1024 → Fin 256 → EReal) (n m : Fin 1024) : EReal := ∑ j : Fin 256, q n j * k m j

/-- The masked scores: column `m` is kept when `m < vl` as signed 32-bit words, and is the fill value -10^6 otherwise. -/
def msk (vl : BitVec 32) (s : Fin 1024 → Fin 1024 → EReal) (n m : Fin 1024) : EReal :=
  Scalar.select (IntOp.cmpi .slt (BitVec.ofNat 32 m.val) vl) (s n m) (Ideal.ofBits .f32 0xC9742400#32)

/-- A row's maximum (from -∞). -/
def rmax (s : Fin 1024 → Fin 1024 → EReal) (n : Fin 1024) : EReal :=
  (Finset.univ : Finset (Fin 1024)).fold max (⊥ : EReal) (fun m => s n m)

/-- The exponential of a score shifted by its row's maximum. -/
def pe (s : Fin 1024 → Fin 1024 → EReal) (n m : Fin 1024) : EReal := Ideal.exp (s n m - rmax s n)

/-- A row's sum of exponentials. -/
def rs (s : Fin 1024 → Fin 1024 → EReal) (n : Fin 1024) : EReal := ∑ m : Fin 1024, pe s n m

/-- Attention with the division last: (∑ₘ pe n m · v m j) / rs n. -/
def outK (q k v : Fin 1024 → Fin 256 → EReal) (vl : BitVec 32) (n : Fin 1024) (j : Fin 256) : EReal :=
  Ideal.div (∑ m : Fin 1024, pe (msk vl (sc q k)) n m * v m j) (rs (msk vl (sc q k)) n)

/-- Attention with the division first: ∑ₘ (pe n m / rs n) · v m j. -/
def outR (q k v : Fin 1024 → Fin 256 → EReal) (vl : BitVec 32) (n : Fin 1024) (j : Fin 256) : EReal :=
  ∑ m : Fin 1024, Ideal.div (pe (msk vl (sc q k)) n m) (rs (msk vl (sc q k)) n) * v m j

/-- Column `j` of the query third, the key third and the value third of a row of 768 concatenated columns. -/
def colQ (j : Fin 256) : Fin 768 := ⟨j.val, by omega⟩
def colK (j : Fin 256) : Fin 768 := ⟨256 + j.val, by omega⟩
def colV (j : Fin 256) : Fin 768 := ⟨512 + j.val, by omega⟩

/-- Attention with the division last, of one batch element, from the rows `xb`, the three projection matrices side by
    side as one 256 × 768 matrix `wc`, the three biases end to end as one row `bc`, and the length word. -/
def attnBlock (xb : Fin 1024 → Fin 256 → EReal) (wc : Fin 256 → Fin 768 → EReal) (bc : Fin 768 → EReal) (vl : BitVec 32)
    (n : Fin 1024) (j : Fin 256) : EReal :=
  outK (lin xb (fun c j => wc c (colQ j)) (fun j => bc (colQ j))) (lin xb (fun c j => wc c (colK j)) (fun j => bc (colK j)))
    (lin xb (fun c j => wc c (colV j)) (fun j => bc (colV j))) vl n j

end Cert.MaskedAttn

end
-- ==== Proof.KernelSide.lean ====
/-
  What the kernel body stores for one batch element, at an index: masked softmax attention with the division last, of
  the element's rows, the concatenated projection matrix and bias, and the element's length word.

  The stored value is read in four stages. The projections: the rows times the 256 × 768 matrix plus the bias, whose
  columns 0–255, 256–511 and 512–767 are the queries, keys and values. The masked scores: the query rows against the key
  rows, kept where the column index is below the length word and the fill value elsewhere. The exponentials of the
  scores less their rows' maxima. The weighted sum of the value rows over the row's sum of weights. Each stage is read
  at its coordinates from the stage before; composed, they are the specification's attention of the three projections.
-/
import proofs.«424928_j84799834293007_3_alg».proof.Proof.Gen.KernelIdeal.Skeleton
import proofs.«424928_j84799834293007_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.MaskedAttn

/-! ## The three contractions' operand indices, axis by axis -/

theorem lhs_proj_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhs_proj_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem rhs_proj_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem rhs_proj_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The projection product at (n, c): the sum over k of the rows at (n, k) times the matrix at (k, c). -/
theorem mm_proj_apply (x : FVec Ideal S1024x256 .bf16) (w : FVec Ideal S256x768 .bf16) (n : Fin 1024) (c : Fin 768) :
    matmul dot_S1024x256_S256x768_S1024x768_1_0_0_1_n_n none x w (constant S1024x768 .f32 0x00000000#32) (ix2 n c)
      = ∑ k : Fin 256, x (ix2 n k) * w (ix2 k c) := by
  show FloatOps.matmul dot_S1024x256_S256x768_S1024x768_1_0_0_1_n_n none x w (constant S1024x768 .f32 0x00000000#32) (ix2 n c) = _
  rw [Ideal.matmul_constant_zero_apply, ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 n c) ((contrEquiv1 dot_S1024x256_S256x768_S1024x768_1_0_0_1_n_n 256 rfl rfl).symm k) = ix2 n k := funext fun a => Fin.ext (by
    match a with
    | ⟨0, _⟩ => exact lhs_proj_0 _ _
    | ⟨1, _⟩ => exact (lhs_proj_1 _ _).trans hk)
  have er : dot_S1024x256_S256x768_S1024x768_1_0_0_1_n_n.rhsIdx (ix2 n c) ((contrEquiv1 dot_S1024x256_S256x768_S1024x768_1_0_0_1_n_n 256 rfl rfl).symm k) = ix2 k c := funext fun a => Fin.ext (by
    match a with
    | ⟨0, _⟩ => exact (rhs_proj_0 _ _).trans hk
    | ⟨1, _⟩ => exact rhs_proj_1 _ _)
  rw [el, er]

theorem lhs_score_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_score_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_score_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_score_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The score product at (n, m): the sum over j of the left rows at (n, j) times the right rows at (m, j). -/
theorem mm_score_apply (a b : FVec Ideal S1024x256 .bf16) (n m : Fin 1024) :
    matmul dot_S1024x256_S1024x256_S1024x1024_1_1_0_0_n_n none a b (constant S1024x1024 .f32 0x00000000#32) (ix2 n m)
      = ∑ j : Fin 256, a (ix2 n j) * b (ix2 m j) := by
  show FloatOps.matmul dot_S1024x256_S1024x256_S1024x1024_1_1_0_0_n_n none a b (constant S1024x1024 .f32 0x00000000#32) (ix2 n m) = _
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 n m) ((contrEquiv1 dot_S1024x256_S1024x256_S1024x1024_1_1_0_0_n_n 256 rfl rfl).symm k) = ix2 n k := funext fun a => Fin.ext (by
    match a with
    | ⟨0, _⟩ => exact lhs_score_0 _ _
    | ⟨1, _⟩ => exact (lhs_score_1 _ _).trans hk)
  have er : dot_S1024x256_S1024x256_S1024x1024_1_1_0_0_n_n.rhsIdx (ix2 n m) ((contrEquiv1 dot_S1024x256_S1024x256_S1024x1024_1_1_0_0_n_n 256 rfl rfl).symm k) = ix2 m k := funext fun a => Fin.ext (by
    match a with
    | ⟨0, _⟩ => exact rhs_score_0 _ _
    | ⟨1, _⟩ => exact (rhs_score_1 _ _).trans hk)
  rw [el, er]

theorem lhs_out_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_out_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_out_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_out_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The weighted sum at (n, j): the sum over m of the weights at (n, m) times the value rows at (m, j). -/
theorem mm_out_apply (e : FVec Ideal S1024x1024 .bf16) (v : FVec Ideal S1024x256 .bf16) (n : Fin 1024) (j : Fin 256) :
    matmul dot_S1024x1024_S1024x256_S1024x256_1_0_0_1_n_n none e v (constant S1024x256 .f32 0x00000000#32) (ix2 n j)
      = ∑ m : Fin 1024, e (ix2 n m) * v (ix2 m j) := by
  show FloatOps.matmul dot_S1024x1024_S1024x256_S1024x256_1_0_0_1_n_n none e v (constant S1024x256 .f32 0x00000000#32) (ix2 n j) = _
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 n j) ((contrEquiv1 dot_S1024x1024_S1024x256_S1024x256_1_0_0_1_n_n 1024 rfl rfl).symm k) = ix2 n k := funext fun a => Fin.ext (by
    match a with
    | ⟨0, _⟩ => exact lhs_out_0 _ _
    | ⟨1, _⟩ => exact (lhs_out_1 _ _).trans hk)
  have er : dot_S1024x1024_S1024x256_S1024x256_1_0_0_1_n_n.rhsIdx (ix2 n j) ((contrEquiv1 dot_S1024x1024_S1024x256_S1024x256_1_0_0_1_n_n 1024 rfl rfl).symm k) = ix2 k j := funext fun a => Fin.ext (by
    match a with
    | ⟨0, _⟩ => exact (rhs_out_0 _ _).trans hk
    | ⟨1, _⟩ => exact rhs_out_1 _ _)
  rw [el, er]

/-! ## The layout operations and the two row reductions, at coordinates -/

section Layout
variable {α : Type}

/-- A block of one batch element viewed as its rows reads, at (n, c), the block at (0, n, c). -/
theorem rows_apply (x : S1x1024x256.Idx → α) (h : S1x1024x256.ShapeCasts S1024x256) (n : Fin 1024) (c : Fin 256) :
    shapeCast S1024x256 x h (ix2 n c) = x (ix3 (0 : Fin 1) n c) := by
  refine (shapeCast_dropUnit_apply ![1024, 256] x h (ix2 n c)).trans (congrArg x ?_)
  funext a
  match a with
  | ⟨0, _⟩ => rfl
  | ⟨1, _⟩ => rfl
  | ⟨2, _⟩ => rfl

/-- The rows stored as a block of one batch element read, at (0, n, j), the rows at (n, j). -/
theorem block_apply (y : S1024x256.Idx → α) (h : S1024x256.ShapeCasts S1x1024x256) (n : Fin 1024) (j : Fin 256) :
    shapeCast S1x1024x256 y h (ix3 (0 : Fin 1) n j) = y (ix2 n j) := by
  refine (shapeCast_addUnit_apply ![1024, 256] y h (ix3 (0 : Fin 1) n j)).trans (congrArg y ?_)
  funext a
  match a with
  | ⟨0, _⟩ => rfl
  | ⟨1, _⟩ => rfl

/-- A vector made one row, then repeated down 1024 rows, reads at (n, c) the vector's entry c. -/
theorem biasRows_apply (b : S768.Idx → α) (h : S768.ShapeCasts S1x768) (h' : S1x768.Broadcasts S1024x768) (n : Fin 1024) (c : Fin 768) :
    broadcastTo S1024x768 (shapeCast S1x768 b h) h' (ix2 n c) = b (ix1 c) := by
  refine (broadcastTo_apply (shapeCast S1x768 b h) h' (ix2 n c) (ix2 (0 : Fin 1) c) (fun a => ?_)).trans ?_
  · match a with
    | ⟨0, _⟩ => show 0 = if (1 : Nat) = 1 then 0 else n.val; rw [if_pos rfl]
    | ⟨1, _⟩ => show c.val = if (768 : Nat) = 1 then 0 else c.val; rw [if_neg (by decide)]
  · refine (shapeCast_addUnit_apply ![768] b h (ix2 (0 : Fin 1) c)).trans (congrArg b ?_)
    funext a
    match a with
    | ⟨0, _⟩ => rfl

/-- The 256 columns from column o on read, at (n, j), the source at (n, o + j). -/
theorem cols_apply (o : Nat) (p : S1024x768.Idx → α) (h : S1024x768.Slices ![0, o] S1024x256) (n : Fin 1024) (j : Fin 256)
    (c : Fin 768) (hc : c.val = o + j.val) :
    extractStridedSlice S1024x256 ![0, o] p h (ix2 n j) = p (ix2 n c) :=
  extractStridedSlice_apply _ _ _ _ _ (fun a => by
    match a with
    | ⟨0, _⟩ => show n.val = 0 + n.val; omega
    | ⟨1, _⟩ => exact hc)

/-- A vector made a column, then repeated along b columns, reads at (n, m) the vector's entry n. -/
theorem colBroadcast_apply {b : Nat} (r : S1024.Idx → α) (h : S1024.ShapeCasts S1024x1) (h' : S1024x1.Broadcasts ⟨2, ![1024, b]⟩)
    (n : Fin 1024) (m : Fin b) :
    broadcastTo ⟨2, ![1024, b]⟩ (shapeCast S1024x1 r h) h' (ix2 n m) = r (ix1 n) := by
  refine (broadcastTo_apply (shapeCast S1024x1 r h) h' (ix2 n m) (ix2 n (0 : Fin 1)) (fun a => ?_)).trans ?_
  · match a with
    | ⟨0, _⟩ => show n.val = if (1024 : Nat) = 1 then 0 else n.val; rw [if_neg (by decide)]
    | ⟨1, _⟩ => show 0 = if (1 : Nat) = 1 then 0 else m.val; rw [if_pos rfl]
  · refine shapeCast_apply r h _ _ ?_
    rw [Shape.rowMajor_val_two, Shape.rowMajor_val_one]
    show n.val = n.val * 1 + 0
    omega

end Layout

/-- The lane sum of a row: at n, the sum over m of the entries (n, m). -/
theorem rowSum_apply (e : FVec Ideal S1024x1024 .f32) (h : S1024x1024.Reduces [1] S1024) (hφ : FKind.Formats .f32)
    (hacc : (0x00000000#32 : BitVec (FTy.bits .f32)) = FKind.add.neutral .f32 hφ) (n : Fin 1024) :
    multiReduction (F := Ideal) .add [1] S1024 e 0x00000000#32 h hφ hacc (ix1 n) = ∑ m : Fin 1024, e (ix2 n m) := by
  rw [Ideal.multiReduction_add_single]
  refine Finset.sum_congr rfl fun m _ => congrArg e (funext fun a => Fin.ext ?_)
  match a with
  | ⟨0, _⟩ => rfl
  | ⟨1, _⟩ => rfl

/-- The maximum of a row from -∞: at n, the fold of max over m of the entries (n, m). -/
theorem rowMax_apply (s : FVec Ideal S1024x1024 .f32) (h : S1024x1024.Reduces [1] S1024) (hφ : FKind.Formats .f32)
    (hacc : (0xFF800000#32 : BitVec (FTy.bits .f32)) = FKind.maximumf.neutral .f32 hφ) (n : Fin 1024) :
    multiReduction (F := Ideal) .maximumf [1] S1024 s 0xFF800000#32 h hφ hacc (ix1 n)
      = (Finset.univ : Finset (Fin 1024)).fold max (⊥ : EReal) (fun m => s (ix2 n m)) := by
  rw [Ideal.multiReduction_maximumf_single]
  have h0 : FloatOps.ofBits (F := Ideal) .f32 0xFF800000#32 = (⊥ : EReal) := by
    show Ideal.ofBits .f32 0xFF800000#32 = ⊥
    simp [Ideal.ofBits, Ideal.ieee]
  rw [h0]
  refine congrArg (fun f => (Finset.univ : Finset (Fin 1024)).fold max (⊥ : EReal) f) (funext fun m => congrArg s (funext fun a => Fin.ext ?_))
  match a with
  | ⟨0, _⟩ => rfl
  | ⟨1, _⟩ => rfl

/-! ## The stored value in four stages -/

/-- The three projections side by side: the rows times the concatenated matrix, plus the concatenated bias on every row. -/
def projV (x : FVec Ideal S1x1024x256 .bf16) (w : FVec Ideal S256x768 .bf16) (b : FVec Ideal S768 .f32) : FVec Ideal S1024x768 .f32 :=
  addf (matmul dot_S1024x256_S256x768_S1024x768_1_0_0_1_n_n none (shapeCast S1024x256 x shapeCasts_S1x1024x256_S1024x256) w (constant S1024x768 .f32 0x00000000#32))
    (broadcastTo S1024x768 (shapeCast S1x768 b shapeCasts_S768_S1x768) broadcasts_S1x768_S1024x768)

/-- The masked scores: the first 256 columns' rows against the next 256 columns' rows, kept where the column index is
    below the length word (signed) and the fill value elsewhere. -/
def maskedV (p : FVec Ideal S1024x768 .f32) (vl : Elt Ideal .i32) : FVec Ideal S1024x1024 .f32 :=
  select (cmpi .slt (iota .tc S1024x1024 32 [1] iota_S1024x1024_d1_w32) (broadcast S1024x1024 vl))
    (matmul dot_S1024x256_S1024x256_S1024x1024_1_1_0_0_n_n none
      (truncf .bf16 (extractStridedSlice S1024x256 ![0, 0] p slices_S1024x768_o0_0_S1024x256) bitsLt_bf16_f32)
      (truncf .bf16 (extractStridedSlice S1024x256 ![0, 256] p slices_S1024x768_o0_256_S1024x256) bitsLt_bf16_f32)
      (constant S1024x1024 .f32 0x00000000#32))
    (broadcast S1024x1024 (Scalar.ofBits .f32 0xC9742400#32 : Ideal .f32))

/-- The exponentials of the scores, each row shifted by its maximum. -/
def expV (s : FVec Ideal S1024x1024 .f32) : FVec Ideal S1024x1024 .f32 :=
  exp (subf s (broadcastTo S1024x1024
    (shapeCast S1024x1 (multiReduction .maximumf [1] S1024 s 0xFF800000#32 reduces_S1024x1024_S1024 (.inl rfl) rfl) shapeCasts_S1024_S1024x1)
    broadcasts_S1024x1_S1024x1024))

/-- The stored block: the exponentials times the last 256 columns' rows, divided by the exponentials' row sums. -/
def outV (p : FVec Ideal S1024x768 .f32) (e : FVec Ideal S1024x1024 .f32) : FVec Ideal S1x1024x256 .f32 :=
  shapeCast S1x1024x256
    (divf
      (matmul dot_S1024x1024_S1024x256_S1024x256_1_0_0_1_n_n none (truncf .bf16 e bitsLt_bf16_f32)
        (truncf .bf16 (extractStridedSlice S1024x256 ![0, 512] p slices_S1024x768_o0_512_S1024x256) bitsLt_bf16_f32)
        (constant S1024x256 .f32 0x00000000#32))
      (broadcastTo S1024x256
        (shapeCast S1024x1 (multiReduction .add [1] S1024 e 0x00000000#32 reduces_S1024x1024_S1024 (.inl rfl) rfl) shapeCasts_S1024_S1024x1)
        broadcasts_S1024x1_S1024x256))
    shapeCasts_S1024x256_S1x1024x256

/-- The second half's stored value is the four stages composed. -/
theorem pay1_eq_stages (v1 : FVec Ideal S256x768 .bf16) (v3 : FVec Ideal S768 .f32) (v43 : Elt Ideal .i32) (v44 : Vec Ideal S1x1024x256 .bf16) :
    k0_pay1 (F := Ideal) v1 v3 v43 v44 = outV (projV v44 v1 v3) (expV (maskedV (projV v44 v1 v3) v43)) := rfl

/-- The first half's stored value is the four stages composed, over the reshaped matrix and bias. -/
theorem pay4_eq_stages (v0 : Vec Ideal S256x768 .bf16) (v2 : Vec Ideal S768 .f32) (v7 : Elt Ideal .i32) (v8 : Vec Ideal S1x1024x256 .bf16) :
    k0_pay4 (F := Ideal) v0 v2 v7 v8
      = outV (projV v8 (k0_pay2 v0) (k0_pay3 v2)) (expV (maskedV (projV v8 (k0_pay2 v0) (k0_pay3 v2)) v7)) := rfl

/-- The projections at (n, c): the row n against column c of the matrix, plus entry c of the bias. -/
theorem projV_apply (x : FVec Ideal S1x1024x256 .bf16) (w : FVec Ideal S256x768 .bf16) (b : FVec Ideal S768 .f32) (n : Fin 1024) (c : Fin 768) :
    projV x w b (ix2 n c) = (∑ k : Fin 256, x (ix3 (0 : Fin 1) n k) * w (ix2 k c)) + b (ix1 c) := by
  unfold projV
  rw [addf_apply, mm_proj_apply, biasRows_apply]
  refine congrArg (· + b (ix1 c)) (Finset.sum_congr rfl fun k _ => ?_)
  rw [rows_apply]

/-- The masked scores at (n, m). -/
theorem maskedV_apply (p : FVec Ideal S1024x768 .f32) (vl : Elt Ideal .i32) (n m : Fin 1024) :
    maskedV p vl (ix2 n m)
      = Scalar.select (IntOp.cmpi .slt (BitVec.ofNat 32 m.val) vl) (∑ j : Fin 256, p (ix2 n (colQ j)) * p (ix2 m (colK j)))
          (Ideal.ofBits .f32 0xC9742400#32) := by
  unfold maskedV
  rw [select_apply, mm_score_apply]
  show Scalar.select (IntOp.cmpi .slt (iota .tc S1024x1024 32 [1] iota_S1024x1024_d1_w32 (ix2 n m)) vl) _ (Ideal.ofBits .f32 0xC9742400#32) = _
  rw [iota_single_apply]
  refine congrArg (fun t => Scalar.select (IntOp.cmpi .slt (BitVec.ofNat 32 m.val) vl) t (Ideal.ofBits .f32 0xC9742400#32))
    (Finset.sum_congr rfl fun j _ => ?_)
  rw [truncf_apply, truncf_apply, cols_apply 0 p _ n j (colQ j) (Nat.zero_add _).symm, cols_apply 256 p _ m j (colK j) rfl]

/-- The exponentials at (n, m): of the score less its row's maximum. -/
theorem expV_apply (s : FVec Ideal S1024x1024 .f32) (n m : Fin 1024) :
    expV s (ix2 n m) = Ideal.exp (s (ix2 n m) - (Finset.univ : Finset (Fin 1024)).fold max (⊥ : EReal) (fun m' => s (ix2 n m'))) := by
  unfold expV
  show Ideal.exp (s (ix2 n m) - broadcastTo S1024x1024 (shapeCast S1024x1 _ shapeCasts_S1024_S1024x1) broadcasts_S1024x1_S1024x1024 (ix2 n m)) = _
  rw [colBroadcast_apply]
  exact congrArg (fun t => Ideal.exp (s (ix2 n m) - t)) (rowMax_apply s _ _ _ n)

/-- The stored block at (0, n, j): the weighted sum of the last 256 columns' rows over the row's sum of weights. -/
theorem outV_apply (p : FVec Ideal S1024x768 .f32) (e : FVec Ideal S1024x1024 .f32) (n : Fin 1024) (j : Fin 256) :
    outV p e (ix3 (0 : Fin 1) n j) = Ideal.div (∑ m : Fin 1024, e (ix2 n m) * p (ix2 m (colV j))) (∑ m : Fin 1024, e (ix2 n m)) := by
  unfold outV
  rw [block_apply, divf_apply, mm_out_apply, colBroadcast_apply]
  refine congr (congrArg Ideal.div (Finset.sum_congr rfl fun m _ => ?_)) (rowSum_apply e _ _ _ n)
  rw [truncf_apply, truncf_apply, cols_apply 512 p _ m j (colV j) rfl]

/-- The four stages composed, at (0, n, j), are masked softmax attention with the division last. -/
theorem stages_apply (x : FVec Ideal S1x1024x256 .bf16) (w : FVec Ideal S256x768 .bf16) (b : FVec Ideal S768 .f32) (vl : Elt Ideal .i32)
    (n : Fin 1024) (j : Fin 256) :
    outV (projV x w b) (expV (maskedV (projV x w b) vl)) (ix3 (0 : Fin 1) n j)
      = attnBlock (fun n c => x (ix3 (0 : Fin 1) n c)) (fun c j => w (ix2 c j)) (fun j => b (ix1 j)) vl n j := by
  rw [outV_apply]
  simp only [expV_apply, maskedV_apply, projV_apply]
  rfl

/-- The loaded weight block passes through a reshape to its own shape unchanged. -/
theorem pay2_eq (v0 : Vec Ideal S256x768 .bf16) : k0_pay2 (F := Ideal) v0 = v0 :=
  shapeCast_self v0 _

/-- The loaded bias block passes through a reshape to its own shape unchanged. -/
theorem pay3_eq (v2 : Vec Ideal S768 .f32) : k0_pay3 (F := Ideal) v2 = v2 :=
  shapeCast_self v2 _

/-- The first half's stored value at (0, n, j). -/
theorem pay4_apply (v0 : Vec Ideal S256x768 .bf16) (v2 : Vec Ideal S768 .f32) (v7 : Elt Ideal .i32) (v8 : Vec Ideal S1x1024x256 .bf16)
    (n : Fin 1024) (j : Fin 256) :
    k0_pay4 (F := Ideal) v0 v2 v7 v8 (ix3 (0 : Fin 1) n j)
      = attnBlock (fun n c => v8 (ix3 (0 : Fin 1) n c)) (fun c j => v0 (ix2 c j)) (fun j => v2 (ix1 j)) v7 n j := by
  rw [pay4_eq_stages, pay2_eq, pay3_eq]
  exact stages_apply v8 v0 v2 v7 n j

/-- The second half's stored value at (0, n, j). -/
theorem pay1_apply (v1 : FVec Ideal S256x768 .bf16) (v3 : FVec Ideal S768 .f32) (v43 : Elt Ideal .i32) (v44 : Vec Ideal S1x1024x256 .bf16)
    (n : Fin 1024) (j : Fin 256) :
    k0_pay1 (F := Ideal) v1 v3 v43 v44 (ix3 (0 : Fin 1) n j)
      = attnBlock (fun n c => v44 (ix3 (0 : Fin 1) n c)) (fun c j => v1 (ix2 c j)) (fun j => v3 (ix1 j)) v43 n j := by
  rw [pay1_eq_stages]
  exact stages_apply v44 v1 v3 v43 n j

end Cert.KernelIdeal.BodyValue

end
-- ==== Proof.Concat.lean ====
/-
  Three matrices side by side, and three rows end to end, read at an index: the entry in the query third, the key third
  and the value third is the entry of the first, the second and the third piece. A change of float format does not
  change an extended real.
-/
import proofs.«424928_j84799834293007_3_alg».proof.Proof.Spec
import Idealize.ShloMosaic.Lib.Pipeline.Value
import Idealize.ShloMosaic.Lib.ValueIdx

noncomputable section

namespace Cert.MaskedAttn

open Idealize.ShloMosaic Idealize.ShloMosaic.ValueIdx

/-- Three 256 × 256 matrices concatenated along the columns, read in each third. -/
theorem concat3_cols (wq wk wv : (⟨2, ![256, 256]⟩ : Shape).Idx → EReal)
    (h : Shape.Concatenates [(⟨2, ![256, 256]⟩ : Shape), ⟨2, ![256, 256]⟩, ⟨2, ![256, 256]⟩] ⟨2, ![256, 768]⟩ 1) (c j : Fin 256) :
    concatenate (⟨2, ![256, 768]⟩ : Shape) 1 [⟨⟨2, ![256, 256]⟩, wq⟩, ⟨⟨2, ![256, 256]⟩, wk⟩, ⟨⟨2, ![256, 256]⟩, wv⟩] h (ix2 c (colQ j)) = wq (ix2 c j)
    ∧ concatenate (⟨2, ![256, 768]⟩ : Shape) 1 [⟨⟨2, ![256, 256]⟩, wq⟩, ⟨⟨2, ![256, 256]⟩, wk⟩, ⟨⟨2, ![256, 256]⟩, wv⟩] h (ix2 c (colK j)) = wk (ix2 c j)
    ∧ concatenate (⟨2, ![256, 768]⟩ : Shape) 1 [⟨⟨2, ![256, 256]⟩, wq⟩, ⟨⟨2, ![256, 256]⟩, wk⟩, ⟨⟨2, ![256, 256]⟩, wv⟩] h (ix2 c (colV j)) = wv (ix2 c j) := by
  refine ⟨?_, ?_, ?_⟩
  · -- the first piece spans columns 0 .. 255: column j of the whole is column j of the piece
    exact concatenate_apply_piece (t := ⟨2, ![256, 768]⟩) (1 : Fin 2)
      [⟨⟨2, ![256, 256]⟩, wq⟩, ⟨⟨2, ![256, 256]⟩, wk⟩, ⟨⟨2, ![256, 256]⟩, wv⟩] h (ix2 c (colQ j))
      0 (by simp) ⟨2, ![256, 256]⟩ wq rfl rfl 0 rfl (ix2 c j)
      (fun b hb => by
        match b, hb with
        | ⟨0, _⟩, _ => rfl
        | ⟨1, _⟩, hb => exact absurd rfl hb)
      (by show 0 + j.val = (colQ j).val; simp [colQ])
  · -- the second piece spans columns 256 .. 511: column 256 + j of the whole is column j of the piece
    exact concatenate_apply_piece (t := ⟨2, ![256, 768]⟩) (1 : Fin 2)
      [⟨⟨2, ![256, 256]⟩, wq⟩, ⟨⟨2, ![256, 256]⟩, wk⟩, ⟨⟨2, ![256, 256]⟩, wv⟩] h (ix2 c (colK j))
      1 (by simp) ⟨2, ![256, 256]⟩ wk rfl rfl 256 (by simp) (ix2 c j)
      (fun b hb => by
        match b, hb with
        | ⟨0, _⟩, _ => rfl
        | ⟨1, _⟩, hb => exact absurd rfl hb)
      (by show 256 + j.val = (colK j).val; simp [colK])
  · -- the third piece spans columns 512 .. 767: column 512 + j of the whole is column j of the piece
    exact concatenate_apply_piece (t := ⟨2, ![256, 768]⟩) (1 : Fin 2)
      [⟨⟨2, ![256, 256]⟩, wq⟩, ⟨⟨2, ![256, 256]⟩, wk⟩, ⟨⟨2, ![256, 256]⟩, wv⟩] h (ix2 c (colV j))
      2 (by simp) ⟨2, ![256, 256]⟩ wv rfl rfl 512 (by simp) (ix2 c j)
      (fun b hb => by
        match b, hb with
        | ⟨0, _⟩, _ => rfl
        | ⟨1, _⟩, hb => exact absurd rfl hb)
      (by show 512 + j.val = (colV j).val; simp [colV])

/-- Three rows of 256 concatenated end to end, read in each third. -/
theorem concat3_row (bq bk bv : (⟨1, ![256]⟩ : Shape).Idx → EReal)
    (h : Shape.Concatenates [(⟨1, ![256]⟩ : Shape), ⟨1, ![256]⟩, ⟨1, ![256]⟩] ⟨1, ![768]⟩ 0) (j : Fin 256) :
    concatenate (⟨1, ![768]⟩ : Shape) 0 [⟨⟨1, ![256]⟩, bq⟩, ⟨⟨1, ![256]⟩, bk⟩, ⟨⟨1, ![256]⟩, bv⟩] h (ix1 (colQ j)) = bq (ix1 j)
    ∧ concatenate (⟨1, ![768]⟩ : Shape) 0 [⟨⟨1, ![256]⟩, bq⟩, ⟨⟨1, ![256]⟩, bk⟩, ⟨⟨1, ![256]⟩, bv⟩] h (ix1 (colK j)) = bk (ix1 j)
    ∧ concatenate (⟨1, ![768]⟩ : Shape) 0 [⟨⟨1, ![256]⟩, bq⟩, ⟨⟨1, ![256]⟩, bk⟩, ⟨⟨1, ![256]⟩, bv⟩] h (ix1 (colV j)) = bv (ix1 j) := by
  refine ⟨?_, ?_, ?_⟩
  · -- positions 0 .. 255 are the first row's
    exact concatenate_apply_piece (t := ⟨1, ![768]⟩) (0 : Fin 1)
      [⟨⟨1, ![256]⟩, bq⟩, ⟨⟨1, ![256]⟩, bk⟩, ⟨⟨1, ![256]⟩, bv⟩] h (ix1 (colQ j))
      0 (by simp) ⟨1, ![256]⟩ bq rfl rfl 0 rfl (ix1 j)
      (fun b hb => absurd (Subsingleton.elim _ _) hb)
      (by show 0 + j.val = (colQ j).val; simp [colQ])
  · -- positions 256 .. 511 are the second row's
    exact concatenate_apply_piece (t := ⟨1, ![768]⟩) (0 : Fin 1)
      [⟨⟨1, ![256]⟩, bq⟩, ⟨⟨1, ![256]⟩, bk⟩, ⟨⟨1, ![256]⟩, bv⟩] h (ix1 (colK j))
      1 (by simp) ⟨1, ![256]⟩ bk rfl rfl 256 (by simp) (ix1 j)
      (fun b hb => absurd (Subsingleton.elim _ _) hb)
      (by show 256 + j.val = (colK j).val; simp [colK])
  · -- positions 512 .. 767 are the third row's
    exact concatenate_apply_piece (t := ⟨1, ![768]⟩) (0 : Fin 1)
      [⟨⟨1, ![256]⟩, bq⟩, ⟨⟨1, ![256]⟩, bk⟩, ⟨⟨1, ![256]⟩, bv⟩] h (ix1 (colV j))
      2 (by simp) ⟨1, ![256]⟩ bv rfl rfl 512 (by simp) (ix1 j)
      (fun b hb => absurd (Subsingleton.elim _ _) hb)
      (by show 512 + j.val = (colV j).val; simp [colV])

end Cert.MaskedAttn

end
-- ==== Proof.HostArrays.lean ====
/-
  The arrays the region is entered with, read at an index.

  The host changes the input rows' float format (no change to an extended real), lays the three projection matrices
  side by side as one 256 × 768 matrix and changes its float format, and lays the three biases end to end as one row
  of 768. So the staged rows are the input rows; the staged matrix's column in the query, key or value third is that
  column of the query, key or value matrix; and likewise the staged bias.
-/
import proofs.«424928_j84799834293007_3_alg».proof.Proof.IdealEntry
import proofs.«424928_j84799834293007_3_alg».proof.Proof.Concat
import Idealize.ShloMosaic.Lib.StableHlo.Run
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Frm Cert.MaskedAttn

variable (m : (ℓ : Loc nD τ sig) → Buf (Elt Ideal) ℓ)

/-- The staged rows are the input rows. -/
theorem V_rows (c : Dev nD) (i : S32x1024x256.Idx) :
    V (F := Ideal) m c main_v3 i = m ((c : Thread nD τ).loc main_arg0) i := by
  -- the staged rows are the format change of the input rows: no earlier operation writes them
  have e : @Eq (S32x1024x256.Idx → EReal) (V (F := Ideal) m c main_v3)
      (truncf (F := Ideal) .bf16 (m ((c : Thread nD τ).loc main_arg0) : FVec Ideal S32x1024x256 .f32) bitsLt_bf16_f32) := by
    dsimp only [Frm.V, hostOps0]
    after_results
  -- a change of float format leaves an extended real as it is
  exact (congrFun e i).trans (truncf_apply (ψ := .bf16) (φ := .f32) (m ((c : Thread nD τ).loc main_arg0) : FVec Ideal S32x1024x256 .f32) bitsLt_bf16_f32 i)

/-- The staged matrix, read in each third of its columns. -/
theorem V_wcat (c : Dev nD) (cc j : Fin 256) :
    V (F := Ideal) m c main_v1 (ix2 cc (colQ j)) = m ((c : Thread nD τ).loc main_arg2) (ix2 cc j)
    ∧ V (F := Ideal) m c main_v1 (ix2 cc (colK j)) = m ((c : Thread nD τ).loc main_arg4) (ix2 cc j)
    ∧ V (F := Ideal) m c main_v1 (ix2 cc (colV j)) = m ((c : Thread nD τ).loc main_arg6) (ix2 cc j) := by
  -- the staged matrix is the format change of the three matrices laid side by side
  have e : @Eq (S256x768.Idx → EReal) (V (F := Ideal) m c main_v1)
      (truncf (F := Ideal) .bf16 (concatenate S256x768 1 [⟨S256x256, (m ((c : Thread nD τ).loc main_arg2) : S256x256.Idx → EReal)⟩,
        ⟨S256x256, (m ((c : Thread nD τ).loc main_arg4) : S256x256.Idx → EReal)⟩,
        ⟨S256x256, (m ((c : Thread nD τ).loc main_arg6) : S256x256.Idx → EReal)⟩]
        concatenates_S256x256_S256x256_S256x256_S256x768_d1 : FVec Ideal S256x768 .f32) bitsLt_bf16_f32) := by
    dsimp only [Frm.V, hostOps0]
    after_results
    rfl
  -- the three matrices side by side, read in each third of the columns
  have h3 := concat3_cols (m ((c : Thread nD τ).loc main_arg2)) (m ((c : Thread nD τ).loc main_arg4))
    (m ((c : Thread nD τ).loc main_arg6)) concatenates_S256x256_S256x256_S256x256_S256x768_d1 cc j
  -- a change of float format leaves an extended real as it is
  have ht : ∀ (X : FVec Ideal S256x768 .f32) (x : S256x768.Idx), (truncf (F := Ideal) .bf16 X bitsLt_bf16_f32 : FVec Ideal S256x768 .bf16) x = X x :=
    fun X x => truncf_apply (ψ := .bf16) (φ := .f32) X bitsLt_bf16_f32 x
  exact ⟨(congrFun e _).trans ((ht _ _).trans h3.1),
    (congrFun e _).trans ((ht _ _).trans h3.2.1),
    (congrFun e _).trans ((ht _ _).trans h3.2.2)⟩

/-- The staged bias, read in each third. -/
theorem V_bcat (c : Dev nD) (j : Fin 256) :
    V (F := Ideal) m c main_v2 (ix1 (colQ j)) = m ((c : Thread nD τ).loc main_arg3) (ix1 j)
    ∧ V (F := Ideal) m c main_v2 (ix1 (colK j)) = m ((c : Thread nD τ).loc main_arg5) (ix1 j)
    ∧ V (F := Ideal) m c main_v2 (ix1 (colV j)) = m ((c : Thread nD τ).loc main_arg7) (ix1 j) := by
  -- the staged bias is the three biases laid end to end: no earlier operation writes them
  have e : @Eq (S768.Idx → EReal) (V (F := Ideal) m c main_v2)
      (concatenate S768 0 [⟨S256, (m ((c : Thread nD τ).loc main_arg3) : S256.Idx → EReal)⟩,
        ⟨S256, (m ((c : Thread nD τ).loc main_arg5) : S256.Idx → EReal)⟩,
        ⟨S256, (m ((c : Thread nD τ).loc main_arg7) : S256.Idx → EReal)⟩] concatenates_S256_S256_S256_S768_d0) := by
    dsimp only [Frm.V, hostOps0]
    after_results
    rfl
  -- the three rows end to end, read in each third
  have h3 := concat3_row (m ((c : Thread nD τ).loc main_arg3)) (m ((c : Thread nD τ).loc main_arg5))
    (m ((c : Thread nD τ).loc main_arg7)) concatenates_S256_S256_S256_S768_d0 j
  exact ⟨(congrFun e _).trans h3.1, (congrFun e _).trans h3.2.1, (congrFun e _).trans h3.2.2⟩

end Cert.KernelIdeal.Val

end
-- ==== Proof.BlocksIn.lean ====
/-
  The windows' blocks at a grid point, read at an index.

  Grid point `t` (of sixteen) stages batch elements 2t and 2t+1 of the rows, the whole 256 × 768 matrix and the whole
  bias row; the length word the body reads for element `e` of the block is word 2t+e of the table.
-/
import proofs.«424928_j84799834293007_3_alg».proof.Proof.IdealBody
import proofs.«424928_j84799834293007_3_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Frm Cert.MaskedAttn

variable (m : (ℓ : Loc nD τ sig) → Buf (Elt Ideal) ℓ)

/-- The batch element a block's element `e` at point `t` is: 2t + e. -/
def elt (t : Fin (cfgM m).N) (e : Fin 2) : Fin 32 := ⟨2 * t.val + e.val, by
  have h : t.val < grid0.N := t.isLt
  rw [N_0] at h
  have := e.isLt
  omega⟩

/-- The rows window's block index at point `t` is (t, 0, 0): the first index map returns the grid coordinate and two
    zeros, and on the one-axis grid of sixteen points the coordinate of point `t` is `t`. Decided over the sixteen points. -/
theorem idx0_facts : ∀ t : Fin grid0.N, cc0_transform_0 (grid0.coords t) 0 = t.val
    ∧ cc0_transform_0 (grid0.coords t) 1 = 0 ∧ cc0_transform_0 (grid0.coords t) 2 = 0 :=
  (by decide +kernel : ∀ t : Fin grid0.N, _)

/-- The offset of the length word read for element `e` at point `t`: as 32-bit words t · 2 + e does not wrap for t < 16,
    e < 2, so it is the number 2t + e. Decided over the sixteen points and the two elements. -/
theorem off_facts : ∀ (t : Fin grid0.N) (e : Fin 2), k0_off1 (grid0.coords t) (BitVec.ofNat 32 e.val) 0 = 2 * t.val + e.val :=
  (by decide +kernel : ∀ (t : Fin grid0.N) (e : Fin 2), _)

/-- The rows block at point `t`: element `e`, row `n`, column `cc` is the staged rows' at batch element 2t+e. -/
theorem iblk0_apply (c : Dev nD) (t : Fin (cfgM m).N) (e : Fin 2) (n : Fin 1024) (cc : Fin 256) :
    iblk (F := Ideal) m c 0 t (ix3 e n cc) = V (F := Ideal) m c main_v3 (ix3 (elt m t e) n cc) := by
  -- the block reads the array at its placement of the index: per axis, block index × block size + the coordinate inside
  unfold Frm.iblk
  show V (F := Ideal) m c main_v3 ((((cfgM m).win 0).blk t).view.emb (ix3 e n cc)) = _
  refine congrArg _ ?_
  obtain ⟨h0, h1, h2⟩ := idx0_facts t
  funext a; apply Fin.ext
  match a with
  | ⟨0, _⟩ =>
    show cc0_transform_0 (grid0.coords t) 0 * 2 + 1 * e.val = 2 * t.val + e.val
    omega
  | ⟨1, _⟩ =>
    show cc0_transform_0 (grid0.coords t) 1 * 1024 + 1 * n.val = n.val
    omega
  | ⟨2, _⟩ =>
    show cc0_transform_0 (grid0.coords t) 2 * 256 + 1 * cc.val = cc.val
    omega

/-- The matrix block is the whole staged matrix. -/
theorem iblk1_apply (c : Dev nD) (t : Fin (cfgM m).N) (cc : Fin 256) (j : Fin 768) :
    iblk (F := Ideal) m c 1 t (ix2 cc j) = V (F := Ideal) m c main_v1 (ix2 cc j) := by
  -- the block index is (0, 0) and the block is as large as the array: the placement is the identity
  unfold Frm.iblk
  show V (F := Ideal) m c main_v1 ((((cfgM m).win 1).blk t).view.emb (ix2 cc j)) = _
  refine congrArg _ ?_
  have h0 : cc0_transform_1 (grid0.coords t) 0 = 0 := rfl
  have h1 : cc0_transform_1 (grid0.coords t) 1 = 0 := rfl
  funext a; apply Fin.ext
  match a with
  | ⟨0, _⟩ =>
    show cc0_transform_1 (grid0.coords t) 0 * 256 + 1 * cc.val = cc.val
    omega
  | ⟨1, _⟩ =>
    show cc0_transform_1 (grid0.coords t) 1 * 768 + 1 * j.val = j.val
    omega

/-- The bias block is the whole staged bias. -/
theorem iblk2_apply (c : Dev nD) (t : Fin (cfgM m).N) (j : Fin 768) :
    iblk (F := Ideal) m c 2 t (ix1 j) = V (F := Ideal) m c main_v2 (ix1 j) := by
  -- the block index is 0 and the block is as large as the array: the placement is the identity
  unfold Frm.iblk
  show V (F := Ideal) m c main_v2 ((((cfgM m).win 2).blk t).view.emb (ix1 j)) = _
  refine congrArg _ ?_
  have h0 : cc0_transform_2 (grid0.coords t) 0 = 0 := rfl
  funext a; apply Fin.ext
  match a with
  | ⟨0, _⟩ =>
    show cc0_transform_2 (grid0.coords t) 0 * 768 + 1 * j.val = j.val
    omega

/-- The length word the body reads for element `e` of the block at point `t` is the table's word 2t+e. -/
theorem word_eq (c : Dev nD) (t : Fin (cfgM m).N) (e : Fin 2) :
    word (F := Ideal) c (grid0.coords t) e (tbl m 0) = m ((c : Thread nD τ).loc main_arg1) (ix1 (elt m t e)) := by
  -- there is one device; the table's view is its whole buffer, so the read is the contents at the one-word rectangle's
  -- offset plus the coordinate 0 inside it, and no operation before the region writes the table
  obtain rfl : c = 0 := Subsingleton.elim _ _
  unfold word
  show V (F := Ideal) m 0 main_arg1 _ = _
  rw [V_main_arg1]
  refine congrArg _ ?_
  have ho := off_facts t e
  funext a; apply Fin.ext
  match a with
  | ⟨0, _⟩ =>
    show k0_off1 (grid0.coords t) (BitVec.ofNat 32 e.val) 0 + 1 * 0 = 2 * t.val + e.val
    omega

end Cert.KernelIdeal.Val

end
-- ==== Proof.BlocksOut.lean ====
/-
  The output window's blocks: where they sit in the result array, and that they cover it.

  Grid point `t` (of sixteen) writes back batch elements 2t and 2t+1 of the result; every point writes back, and the
  sixteen blocks cover the thirty-two batch elements.
-/
import proofs.«424928_j84799834293007_3_alg».proof.Proof.BlocksIn
import proofs.«424928_j84799834293007_3_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Frm Cert.MaskedAttn

variable (m : (ℓ : Loc nD τ sig) → Buf (Elt Ideal) ℓ)

/-- The output window's index map, decided over the sixteen points: the block index at point `t` is (t, 0, 0). -/
theorem idx3 : ∀ t : Fin grid0.N, cc0_transform_3 (grid0.coords t) (0 : Fin 3) = t.val
    ∧ cc0_transform_3 (grid0.coords t) (1 : Fin 3) = 0 ∧ cc0_transform_3 (grid0.coords t) (2 : Fin 3) = 0 :=
  (by decide +kernel : ∀ t : Fin grid0.N, _)

/-- The output window's block at point `t` sits at batch elements 2t and 2t+1 of the result array: the array index of
    the block's local index (e, n, j). -/
theorem oblk_emb (t : Fin (cfgM m).N) (e : Fin 2) (n : Fin 1024) (j : Fin 256) :
    (((cfgM m).win 3).blk t).view.emb (ix3 e n j) = ix3 (elt m t e) n j := by
  obtain ⟨h0, h1, h2⟩ := idx3 t
  -- per axis: block index × block size + 1 × the coordinate inside the block
  funext a; apply Fin.ext
  match a with
  | ⟨0, _⟩ => show cc0_transform_3 (grid0.coords t) (0 : Fin 3) * 2 + 1 * e.val = 2 * t.val + e.val; omega
  | ⟨1, _⟩ => show cc0_transform_3 (grid0.coords t) (1 : Fin 3) * 1024 + 1 * n.val = n.val; omega
  | ⟨2, _⟩ => show cc0_transform_3 (grid0.coords t) (2 : Fin 3) * 256 + 1 * j.val = j.val; omega

/-- The output window is written back at every point. -/
theorem flush3 (t : Fin (cfgM m).N) : ((cfgM m).win 3).flush t = true :=
  (by decide +kernel : ∀ t : Fin grid0.N, Pipeline.Window.flushOf grid0 true cc0_transform_3 t = true) t

/-- Every block of the output window lies inside the result array. -/
theorem inb3 (t : Fin grid0.N) (a : Fin 3) :
    cc0_transform_3 (grid0.coords t) a * S2x1024x256.size a + S2x1024x256.size a ≤ S32x1024x256.size a := by
  have h := hinb0_3 (grid0.coords t) a
  rwa [Nat.add_mul, Nat.one_mul] at h

/-- An index of the result array is in point `t`'s block iff each coordinate is in the block's range on its axis. -/
theorem mem_oblk (t : Fin (cfgM m).N) (i : S32x1024x256.Idx) :
    i ∈ (((cfgM m).win 3).blk t).view.set ↔ ∀ a : Fin 3, cc0_transform_3 (grid0.coords t) a * S2x1024x256.size a ≤ (i a).val
      ∧ (i a).val < cc0_transform_3 (grid0.coords t) a * S2x1024x256.size a + S2x1024x256.size a := by
  show i ∈ ((View.whole main_v4).slice (Rect.unit (s := S32x1024x256)
    (fun a => cc0_transform_3 (grid0.coords t) a * S2x1024x256.size a) S2x1024x256.size (inb3 t))).set ↔ _
  rw [View.set_slice_whole, Rect.mem_set_unit]
  exact Iff.rfl

/-- An index (b, n, j) of the result array is in the block of point b / 2. -/
theorem oblk_mem (b : Fin 32) (n : Fin 1024) (j : Fin 256) :
    ∃ t : Fin (cfgM m).N, ∃ e : Fin 2, elt m t e = b ∧ (ix3 b n j : S32x1024x256.Idx) ∈ (((cfgM m).win 3).blk t).view.set := by
  have hb : b.val < 32 := b.isLt
  have hn : n.val < 1024 := n.isLt
  have hj : j.val < 256 := j.isLt
  -- the point is b / 2 and the element inside its block is b % 2
  let t : Fin grid0.N := ⟨b.val / 2, by rw [N_0]; omega⟩
  refine ⟨t, ⟨b.val % 2, by omega⟩, Fin.ext (by show 2 * (b.val / 2) + b.val % 2 = b.val; omega), ?_⟩
  obtain ⟨h0, h1, h2⟩ := idx3 t
  have ht : t.val = b.val / 2 := rfl
  rw [mem_oblk]
  intro a
  match a with
  | ⟨0, _⟩ => show cc0_transform_3 (grid0.coords t) (0 : Fin 3) * 2 ≤ b.val ∧ b.val < cc0_transform_3 (grid0.coords t) (0 : Fin 3) * 2 + 2; omega
  | ⟨1, _⟩ => show cc0_transform_3 (grid0.coords t) (1 : Fin 3) * 1024 ≤ n.val ∧ n.val < cc0_transform_3 (grid0.coords t) (1 : Fin 3) * 1024 + 1024; omega
  | ⟨2, _⟩ => show cc0_transform_3 (grid0.coords t) (2 : Fin 3) * 256 ≤ j.val ∧ j.val < cc0_transform_3 (grid0.coords t) (2 : Fin 3) * 256 + 256; omega

end Cert.KernelIdeal.Val

end
-- ==== Proof.Final.lean ====
/-
  The result array of the kernel program.

  At grid point `t` the body stores, for each of the block's two batch elements, attention with the division last of
  that element's staged rows, the staged concatenated matrix and bias and the element's length word. Reading the
  staged arrays and the blocks back to the arguments, each store is a block of ONE function `G` of the eight argument
  arrays: at (b, n, j), attention with the division last of the projections of batch element `b`'s rows by the query,
  key and value matrices and biases, masked by `b`'s length word. Every point writes its block back and the sixteen
  blocks cover the array, so the array ends as `G`.
-/
import proofs.«424928_j84799834293007_3_alg».proof.Proof.IdealRun
import proofs.«424928_j84799834293007_3_alg».proof.Proof.KernelSide
import proofs.«424928_j84799834293007_3_alg».proof.Proof.HostArrays
import proofs.«424928_j84799834293007_3_alg».proof.Proof.BlocksIn
import proofs.«424928_j84799834293007_3_alg».proof.Proof.BlocksOut
import proofs.«424928_j84799834293007_3_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.KernelIdeal.Frm Cert.MaskedAttn

variable (m : (ℓ : Loc nD τ sig) → Buf (Elt Ideal) ℓ)

open Cert.KernelIdeal.BodyValue

/-- Attention of a block read through other names: equal rows, columns, biases and length word give equal results. -/
theorem attnBlock_congr {xb xb' : Fin 1024 → Fin 256 → EReal} {wc : Fin 256 → Fin 768 → EReal} {bc : Fin 768 → EReal} {vl vl' : BitVec 32}
    {wq wk wv : Fin 256 → Fin 256 → EReal} {bq bk bv : Fin 256 → EReal}
    (hx : ∀ n cc, xb n cc = xb' n cc)
    (hq : ∀ cc j, wc cc (colQ j) = wq cc j) (hk : ∀ cc j, wc cc (colK j) = wk cc j) (hv : ∀ cc j, wc cc (colV j) = wv cc j)
    (hbq : ∀ j, bc (colQ j) = bq j) (hbk : ∀ j, bc (colK j) = bk j) (hbv : ∀ j, bc (colV j) = bv j) (hvl : vl = vl')
    (n : Fin 1024) (j : Fin 256) :
    attnBlock xb wc bc vl n j = outK (lin xb' wq bq) (lin xb' wk bk) (lin xb' wv bv) vl' n j := by
  subst hvl
  have ex : xb = xb' := funext fun n => funext fun cc => hx n cc
  have e1 : (fun c j => wc c (colQ j)) = wq := funext fun c => funext fun j => hq c j
  have e2 : (fun c j => wc c (colK j)) = wk := funext fun c => funext fun j => hk c j
  have e3 : (fun c j => wc c (colV j)) = wv := funext fun c => funext fun j => hv c j
  have e4 : (fun j => bc (colQ j)) = bq := funext fun j => hbq j
  have e5 : (fun j => bc (colK j)) = bk := funext fun j => hbk j
  have e6 : (fun j => bc (colV j)) = bv := funext fun j => hbv j
  unfold attnBlock
  rw [ex, e1, e2, e3, e4, e5, e6]

/-- The kernel program's result as one function of the argument arrays: at (b, n, j), attention with the division
    last of the projections of batch element `b`'s rows, masked by `b`'s length word. -/
def G (c : Dev nD) : S32x1024x256.Idx → EReal := fun i =>
  outK
    (lin (fun n cc => m ((c : Thread nD τ).loc main_arg0) (ix3 (i 0) n cc)) (fun cc j => m ((c : Thread nD τ).loc main_arg2) (ix2 cc j)) (fun j => m ((c : Thread nD τ).loc main_arg3) (ix1 j)))
    (lin (fun n cc => m ((c : Thread nD τ).loc main_arg0) (ix3 (i 0) n cc)) (fun cc j => m ((c : Thread nD τ).loc main_arg4) (ix2 cc j)) (fun j => m ((c : Thread nD τ).loc main_arg5) (ix1 j)))
    (lin (fun n cc => m ((c : Thread nD τ).loc main_arg0) (ix3 (i 0) n cc)) (fun cc j => m ((c : Thread nD τ).loc main_arg6) (ix2 cc j)) (fun j => m ((c : Thread nD τ).loc main_arg7) (ix1 j)))
    (m ((c : Thread nD τ).loc main_arg1) (ix1 (i 0))) (i 1) (i 2)

theorem hzW : (![0, 0] : Fin 2 → Nat) = fun _ => 0 := funext fun a => by fin_cases a <;> rfl
theorem hzB : (![0] : Fin 1 → Nat) = fun _ => 0 := funext fun a => by fin_cases a <;> rfl

/-- The first half's rectangle places (0, n, cc) at (0, n, cc) of the block, the second half's at (1, n, cc). -/
theorem r0_emb (n : Fin 1024) (cc : Fin 256) : r0.emb (ix3 (0 : Fin 1) n cc) = ix3 (0 : Fin 2) n cc := by
  funext a; apply Fin.ext
  match a with
  | ⟨0, _⟩ => rfl
  | ⟨1, _⟩ => show 0 + 1 * n.val = n.val; omega
  | ⟨2, _⟩ => show 0 + 1 * cc.val = cc.val; omega
theorem r1_emb (n : Fin 1024) (cc : Fin 256) : r1.emb (ix3 (0 : Fin 1) n cc) = ix3 (1 : Fin 2) n cc := by
  funext a; apply Fin.ext
  match a with
  | ⟨0, _⟩ => rfl
  | ⟨1, _⟩ => show 0 + 1 * n.val = n.val; omega
  | ⟨2, _⟩ => show 0 + 1 * cc.val = cc.val; omega

/-- One stored half at a block-local index: the attention of batch element 2t+e at (n, j). -/
theorem half_apply (c : Dev nD) (t : Fin (cfgM m).N) (e : Fin 2) (n : Fin 1024) (j : Fin 256)
    (w : Vec Ideal S256x768 .bf16) (hw : w = iblk (F := Ideal) m c 1 t) (bias : Vec Ideal S768 .f32) (hb : bias = iblk (F := Ideal) m c 2 t)
    (rows : Vec Ideal S1x1024x256 .bf16) (hr : ∀ n cc, rows (ix3 (0 : Fin 1) n cc) = iblk (F := Ideal) m c 0 t (ix3 e n cc)) :
    attnBlock (fun n cc => rows (ix3 (0 : Fin 1) n cc)) (fun cc j => w (ix2 cc j)) (fun j => bias (ix1 j))
        (word (F := Ideal) c (grid0.coords t) e (tbl m 0)) n j
      = G m c (ix3 (elt m t e) n j) := by
  subst hw; subst hb
  unfold G
  refine attnBlock_congr (fun n cc => ?_) (fun cc j => ?_) (fun cc j => ?_) (fun cc j => ?_) (fun j => ?_) (fun j => ?_) (fun j => ?_) ?_ n j
  · rw [hr, iblk0_apply, V_rows]
  · rw [iblk1_apply]; exact (V_wcat m c cc j).1
  · rw [iblk1_apply]; exact (V_wcat m c cc j).2.1
  · rw [iblk1_apply]; exact (V_wcat m c cc j).2.2
  · rw [iblk2_apply]; exact (V_bcat m c j).1
  · rw [iblk2_apply]; exact (V_bcat m c j).2.1
  · rw [iblk2_apply]; exact (V_bcat m c j).2.2
  · exact word_eq m c t e

/-- Block `t` of `G`, at block-local indices. -/
def Gblk (c : Dev nD) (t : Fin (cfgM m).N) : Vec Ideal S2x1024x256 .f32 := fun y => G m c (ix3 (elt m t (y 0)) (y 1) (y 2))

/-- A load through the whole-block rectangle reads the block. -/
theorem ld_W (X : Vec Ideal S256x768 .bf16) : View.ld X rW = X := View.ld_unit_zero (S := S256x768) hzW _ X
theorem ld_B (X : Vec Ideal S768 .f32) : View.ld X rB = X := View.ld_unit_zero (S := S768) hzB _ X
/-- A load through a half's rectangle reads that half. -/
theorem ld_r0 (X : Vec Ideal S2x1024x256 .bf16) (n : Fin 1024) (cc : Fin 256) :
    View.ld X r0 (ix3 (0 : Fin 1) n cc) = X (ix3 (0 : Fin 2) n cc) := by
  show X (r0.emb (ix3 (0 : Fin 1) n cc)) = _
  rw [r0_emb]
theorem ld_r1 (X : Vec Ideal S2x1024x256 .bf16) (n : Fin 1024) (cc : Fin 256) :
    View.ld X r1 (ix3 (0 : Fin 1) n cc) = X (ix3 (1 : Fin 2) n cc) := by
  show X (r1.emb (ix3 (0 : Fin 1) n cc)) = _
  rw [r1_emb]

/-- The first half's stored value is block `t` of `G` where the first half sits. -/
theorem piece0 (c : Dev nD) (t : Fin (cfgM m).N) (X0 : Vec Ideal S2x1024x256 .bf16) (h0 : X0 = iblk (F := Ideal) m c 0 t)
    (X1 : Vec Ideal S256x768 .bf16) (h1 : X1 = iblk (F := Ideal) m c 1 t) (X2 : Vec Ideal S768 .f32) (h2 : X2 = iblk (F := Ideal) m c 2 t)
    (x : S1x1024x256.Idx) :
    k0_pay4 (F := Ideal) (View.ld X1 rW) (View.ld X2 rB) (word (F := Ideal) c (grid0.coords t) 0 (tbl m 0)) (View.ld X0 r0) x
      = Gblk m c t (r0.emb x) := by
  obtain ⟨n, cc, rfl⟩ : ∃ (n : Fin 1024) (cc : Fin 256), x = ix3 (0 : Fin 1) n cc :=
    ⟨x 1, x 2, (eq_ix3 x).trans (congrArg (fun a : Fin 1 => ix3 a (x 1) (x 2)) (Subsingleton.elim (α := Fin 1) (x 0) 0))⟩
  rw [pay4_apply, r0_emb, ld_W, ld_B]
  exact half_apply m c t 0 n cc X1 h1 X2 h2 (View.ld X0 r0) (fun n cc => by rw [ld_r0, h0])

/-- The second half's stored value is block `t` of `G` where the second half sits. -/
theorem piece1 (c : Dev nD) (t : Fin (cfgM m).N) (X0 : Vec Ideal S2x1024x256 .bf16) (h0 : X0 = iblk (F := Ideal) m c 0 t)
    (X1 : Vec Ideal S256x768 .bf16) (h1 : X1 = iblk (F := Ideal) m c 1 t) (X2 : Vec Ideal S768 .f32) (h2 : X2 = iblk (F := Ideal) m c 2 t)
    (x : S1x1024x256.Idx) :
    k0_pay1 (F := Ideal) (k0_pay2 (View.ld X1 rW)) (k0_pay3 (View.ld X2 rB)) (word (F := Ideal) c (grid0.coords t) 1 (tbl m 0)) (View.ld X0 r1) x
      = Gblk m c t (r1.emb x) := by
  obtain ⟨n, cc, rfl⟩ : ∃ (n : Fin 1024) (cc : Fin 256), x = ix3 (0 : Fin 1) n cc :=
    ⟨x 1, x 2, (eq_ix3 x).trans (congrArg (fun a : Fin 1 => ix3 a (x 1) (x 2)) (Subsingleton.elim (α := Fin 1) (x 0) 0))⟩
  rw [pay1_apply, r1_emb, pay2_eq, pay3_eq, ld_W, ld_B]
  exact half_apply m c t 1 n cc X1 h1 X2 h2 (View.ld X0 r1) (fun n cc => by rw [ld_r1, h0])

/-- What the body leaves in the output block at point `t`, at a block-local index. -/
theorem out3_apply (c : Dev nD) (t : Fin (cfgM m).N) (y : S2x1024x256.Idx) :
    out3 (F := Ideal) c (grid0.coords t) (iblk m c 0 t) (iblk m c 1 t) (iblk m c 2 t) (tbl m 0) y = Gblk m c t y := by
  unfold out3
  refine View.canon_apply_of_pieces (Val := Elt Ideal) (Gblk m c t) _ (fun p hp x => ?_) y (cover3 _ _ y)
  rcases List.mem_cons.mp hp with rfl | hp
  · exact piece1 m c t _ rfl _ rfl _ rfl x
  · obtain rfl := List.mem_singleton.mp hp
    exact piece0 m c t _ rfl _ rfl _ rfl x

/-- The body's output block at a block-local index is `G` at the index's place in the array. -/
theorem out3_emb (c : Dev nD) (t : Fin (cfgM m).N) (y : S2x1024x256.Idx) :
    out3 (F := Ideal) c (grid0.coords t) (iblk m c 0 t) (iblk m c 1 t) (iblk m c 2 t) (tbl m 0) y
      = G m c ((((cfgM m).win 3).blk t).view.emb y) := by
  refine (out3_apply m c t y).trans ?_
  show G m c (ix3 (elt m t (y 0)) (y 1) (y 2)) = _
  refine congrArg (G m c) ?_
  exact ((congrArg (fun z => (((cfgM m).win 3).blk t).view.emb z) (eq_ix3 y)).trans (oblk_emb m t (y 0) (y 1) (y 2))).symm

/-- What point `t` writes back is block `t` of `G`. -/
theorem flushed_eq (c : Dev nD) (t : Fin (cfgM m).N) :
    (dats m 0 c).flushed 3 t = (((cfgM m).win 3).blk t).view.read (Elt Ideal) (G m c) := by
  show ((cfgM m).win 3).cut (grid0.coords t) ((dats m 0 c).after 3 t) = _
  rw [after0_3]
  funext y
  exact out3_emb m c t y

/-- Every index of the result array is in some point's block, and every point writes back. -/
theorem covered (i : S32x1024x256.Idx) :
    ∃ t : Fin (cfgM m).N, ((cfgM m).win 3).flush t = true ∧ i ∈ (((cfgM m).win 3).blk t).view.set := by
  obtain ⟨t, e, -, hmem⟩ := oblk_mem m (i 0) (i 1) (i 2)
  refine ⟨t, flush3 m t, ?_⟩
  have hi : i = ix3 (i 0) (i 1) (i 2) := eq_ix3 i
  rw [hi]; exact hmem

/-- The result array after the run is `G` of the arguments. -/
theorem final (c : Dev nD) : (dats m 0 c).arrAt 3 (cfgM m).N = G m c :=
  (dats m 0 c).arrAt_eq_of_cover 3 (G m c) (fun t _ => flushed_eq m c t) (fun i => covered m i)

/-- The kernel program's run, read: the result array ends as `G` of the arguments, the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 3).trans (final m c),
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).2 main_arg6 (Pipeline.mem_restRefs_of (win := spec0) main_arg6 (by decide) (by decide))).trans (V_main_arg6 m c),
      ((h c).2 main_arg7 (Pipeline.mem_restRefs_of (win := spec0) main_arg7 (by decide) (by decide))).trans (V_main_arg7 m c)⟩)
    (run_main m ρ)

end Cert.KernelIdeal.Val

end
-- ==== Proof.RefSide.lean ====
/-
  The reference's result at an index is masked softmax attention with the division first, of the projections of the
  batch element's rows.
-/
import proofs.«424928_j84799834293007_3_alg».proof.Proof.Gen.ReferenceIdeal.Read
import proofs.«424928_j84799834293007_3_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.MaskedAttn

/-- The pattern 0xFF800000 (sign set, exponent all ones, fraction zero) denotes -∞. -/
theorem ofBits_negInf : Ideal.ofBits .f32 0xFF800000#32 = (⊥ : EReal) := by
  simp [Ideal.ofBits, Ideal.ieee]

section Stages

variable (x0 : (⟨S32x1024x256, .f32⟩ : BufTy).Contents (Elt Ideal)) (x1 : (⟨S32, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : Fin 32)

/-- The query projection of batch element `b`: entry (n, j) is ∑ c, x0 (b, n, c) · x2 (c, j) + x3 j. -/
theorem v3_at (n : Fin 1024) (j : Fin 256) :
    val_main_v3 (F := Ideal) x0 x2 x3 (ix3 b n j)
      = lin (fun n c => x0 (ix3 b n c)) (fun c j => x2 (ix2 c j)) (fun j => x3 (ix1 j)) n j := by
  rw [val_main_v3_apply, val_main_v0_apply, val_main_v2_apply, val_main_v1_apply, Ideal.addf_def]
  show _ = (∑ c : Fin 256, x0 (ix3 b n c) * x2 (ix2 c j)) + x3 (ix1 j)
  -- the bias is read at column j: the two broadcasts keep the last coordinate
  have eb : idx_main_v1 (idx_main_v2 (ix3 b n j)) = ix1 j := funext fun a => by match a with | ⟨0, _⟩ => rfl
  rw [eb]
  refine congrArg (· + x3 (ix1 j)) (Finset.sum_congr rfl fun k _ => ?_)
  -- the contraction reads the row at (b, n, k) and the matrix at (k, j)
  have el : lidx_main_v0 (ix3 b n j) k = ix3 b n k := funext fun a => by match a with | ⟨0, _⟩ => rfl | ⟨1, _⟩ => rfl | ⟨2, _⟩ => rfl
  have er : ridx_main_v0 (ix3 b n j) k = ix2 k j := funext fun a => by match a with | ⟨0, _⟩ => rfl | ⟨1, _⟩ => rfl
  rw [el, er]

/-- The key projection of batch element `b`. -/
theorem v7_at (n : Fin 1024) (j : Fin 256) :
    val_main_v7 (F := Ideal) x0 x4 x5 (ix3 b n j)
      = lin (fun n c => x0 (ix3 b n c)) (fun c j => x4 (ix2 c j)) (fun j => x5 (ix1 j)) n j := by
  rw [val_main_v7_apply, val_main_v4_apply, val_main_v6_apply, val_main_v5_apply, Ideal.addf_def]
  show _ = (∑ c : Fin 256, x0 (ix3 b n c) * x4 (ix2 c j)) + x5 (ix1 j)
  have eb : idx_main_v5 (idx_main_v6 (ix3 b n j)) = ix1 j := funext fun a => by match a with | ⟨0, _⟩ => rfl
  rw [eb]
  refine congrArg (· + x5 (ix1 j)) (Finset.sum_congr rfl fun k _ => ?_)
  have el : lidx_main_v4 (ix3 b n j) k = ix3 b n k := funext fun a => by match a with | ⟨0, _⟩ => rfl | ⟨1, _⟩ => rfl | ⟨2, _⟩ => rfl
  have er : ridx_main_v4 (ix3 b n j) k = ix2 k j := funext fun a => by match a with | ⟨0, _⟩ => rfl | ⟨1, _⟩ => rfl
  rw [el, er]

/-- The value projection of batch element `b`. -/
theorem v11_at (n : Fin 1024) (j : Fin 256) :
    val_main_v11 (F := Ideal) x0 x6 x7 (ix3 b n j)
      = lin (fun n c => x0 (ix3 b n c)) (fun c j => x6 (ix2 c j)) (fun j => x7 (ix1 j)) n j := by
  rw [val_main_v11_apply, val_main_v8_apply, val_main_v10_apply, val_main_v9_apply, Ideal.addf_def]
  show _ = (∑ c : Fin 256, x0 (ix3 b n c) * x6 (ix2 c j)) + x7 (ix1 j)
  have eb : idx_main_v9 (idx_main_v10 (ix3 b n j)) = ix1 j := funext fun a => by match a with | ⟨0, _⟩ => rfl
  rw [eb]
  refine congrArg (· + x7 (ix1 j)) (Finset.sum_congr rfl fun k _ => ?_)
  have el : lidx_main_v8 (ix3 b n j) k = ix3 b n k := funext fun a => by match a with | ⟨0, _⟩ => rfl | ⟨1, _⟩ => rfl | ⟨2, _⟩ => rfl
  have er : ridx_main_v8 (ix3 b n j) k = ix2 k j := funext fun a => by match a with | ⟨0, _⟩ => rfl | ⟨1, _⟩ => rfl
  rw [el, er]

local notation "Qp" => lin (fun n c => x0 (ix3 b n c)) (fun c j => x2 (ix2 c j)) (fun j => x3 (ix1 j))
local notation "Kp" => lin (fun n c => x0 (ix3 b n c)) (fun c j => x4 (ix2 c j)) (fun j => x5 (ix1 j))
local notation "Vp" => lin (fun n c => x0 (ix3 b n c)) (fun c j => x6 (ix2 c j)) (fun j => x7 (ix1 j))
local notation "Sm" => msk (x1 (ix1 b)) (sc Qp Kp)

/-- The scores of batch element `b`: entry (n, m) is the inner product of query row n and key row m. -/
theorem v12_at (n m : Fin 1024) :
    val_main_v12 (F := Ideal) x0 x2 x3 x4 x5 (ix3 b n m) = sc Qp Kp n m := by
  rw [val_main_v12_apply]
  show _ = ∑ j : Fin 256, Qp n j * Kp m j
  refine Finset.sum_congr rfl fun k _ => ?_
  -- the contraction reads the queries at (b, n, k) and the keys at (b, m, k)
  have el : lidx_main_v12 (ix3 b n m) k = ix3 b n k := funext fun a => by match a with | ⟨0, _⟩ => rfl | ⟨1, _⟩ => rfl | ⟨2, _⟩ => rfl
  have er : ridx_main_v12 (ix3 b n m) k = ix3 b m k := funext fun a => by match a with | ⟨0, _⟩ => rfl | ⟨1, _⟩ => rfl | ⟨2, _⟩ => rfl
  rw [el, er, v3_at, v7_at]

/-- The keep flag at (b, n, m): column m's index, as a 32-bit word, is below element b's length word (signed). -/
theorem keep_at (n m : Fin 1024) :
    val_main_call0_v1 (F := Ideal) x1 (ix3 b n m) = IntOp.cmpi .slt (BitVec.ofNat 32 m.val) (x1 (ix1 b)) := by
  rw [val_main_call0_v1_apply, val_main_v18_apply, val_main_v16_apply, val_main_v14_apply, val_main_v13_apply,
    val_main_v17_apply, val_main_v15_apply]
  -- the length word is read at b: the broadcasts keep the first coordinate
  have e : idx_main_v15 (idx_main_v17 (idx_main_call0_v1 (ix3 b n m))) = ix1 b := funext fun a => by match a with | ⟨0, _⟩ => rfl
  rw [e]

/-- The masked scores of batch element `b`. -/
theorem v19_at (n m : Fin 1024) :
    val_main_v19 (F := Ideal) x0 x1 x2 x3 x4 x5 (ix3 b n m) = Sm n m := by
  rw [val_main_v19_apply, keep_at, v12_at, val_main_call0_v2_apply, val_main_call0_v0_apply, val_main_cst_apply]
  rfl

/-- The row maximum folded from the initial value -∞ over the columns. -/
theorem v20_at (n : Fin 1024) :
    val_main_v20 (F := Ideal) x0 x1 x2 x3 x4 x5 (ix2 b n)
      = (Finset.univ : Finset (Fin 1024)).fold max (⊥ : EReal) (fun m => Sm n m) := by
  unfold val_main_v20
  have h : S32x1024x1024.Reduces [2] S32x1024 := by decide
  rw [Host.reduce_eq_fold_single FloatOps.maximumf _ _ reducesTo_S32x1024x1024_S32x1024_d2 h h_S_]
  -- the initial value is the pattern of -∞
  have hinit : val_main_cst_0 (F := Ideal) (Shape.Idx.first h_S_) = (⊥ : EReal) := by
    rw [val_main_cst_0_apply, Ideal.ofBits_def, ofBits_negInf]
  -- the reduced index (b, n) with column k put back is (b, n, k)
  have hf : (val_main_v19 (F := Ideal) x0 x1 x2 x3 x4 x5 ∘ h.lift (ix2 b n)) = fun m : Fin 1024 => Sm n m :=
    funext fun (k : Fin 1024) => by
      have e : h.lift (ix2 b n) k = (ix3 b n k : S32x1024x1024.Idx) :=
        funext fun a => Fin.ext (by match a with | ⟨0, _⟩ => rfl | ⟨1, _⟩ => rfl | ⟨2, _⟩ => rfl)
      exact (congrArg (val_main_v19 (F := Ideal) x0 x1 x2 x3 x4 x5) e).trans (v19_at x0 x1 x2 x3 x4 x5 b n k)
  exact congrArg₂ (fun i f => Finset.fold max i f (Finset.univ : Finset (Fin 1024))) hinit hf

/-- The row maximum: the maximum with -∞ changes nothing. -/
theorem v22_at (n : Fin 1024) :
    val_main_v22 (F := Ideal) x0 x1 x2 x3 x4 x5 (ix2 b n) = rmax Sm n := by
  rw [val_main_v22_apply, val_main_v21_apply, val_main_cst_1_apply, v20_at, Ideal.maximumf_def, Ideal.ofBits_def,
    ofBits_negInf, max_bot_left]
  rfl

/-- The exponentials of the scores shifted by their row's maximum. -/
theorem v26_at (n m : Fin 1024) :
    val_main_v26 (F := Ideal) x0 x1 x2 x3 x4 x5 (ix3 b n m) = pe Sm n m := by
  rw [val_main_v26_apply, val_main_v25_apply, val_main_v24_apply, val_main_v23_apply]
  -- the row maximum is read at (b, n): the broadcasts drop the column
  have e : idx_main_v23 (idx_main_v24 (ix3 b n m)) = ix2 b n := funext fun a => by match a with | ⟨0, _⟩ => rfl | ⟨1, _⟩ => rfl
  rw [e, v22_at, v19_at, Ideal.hostUnary_exp_def, Ideal.subf_def]
  rfl

/-- The row sums of the exponentials (the initial value is the pattern of 0). -/
theorem v27_at (n : Fin 1024) :
    val_main_v27 (F := Ideal) x0 x1 x2 x3 x4 x5 (ix2 b n) = rs Sm n := by
  rw [val_main_v27_apply, val_main_cst_2_apply, Ideal.ofBits_def, Ideal.ofBits_zero_f32, zero_add]
  show _ = ∑ m : Fin 1024, pe Sm n m
  refine Finset.sum_congr rfl fun k _ => ?_
  have e : idx_main_v27 (ix2 b n) k = ix3 b n k := funext fun a => by match a with | ⟨0, _⟩ => rfl | ⟨1, _⟩ => rfl | ⟨2, _⟩ => rfl
  rw [e, v26_at]

/-- The normalised exponentials. -/
theorem v30_at (n m : Fin 1024) :
    val_main_v30 (F := Ideal) x0 x1 x2 x3 x4 x5 (ix3 b n m) = Ideal.div (pe Sm n m) (rs Sm n) := by
  rw [val_main_v30_apply, val_main_v29_apply, val_main_v28_apply]
  -- the row sum is read at (b, n): the broadcasts drop the column
  have e : idx_main_v28 (idx_main_v29 (ix3 b n m)) = ix2 b n := funext fun a => by match a with | ⟨0, _⟩ => rfl | ⟨1, _⟩ => rfl
  rw [e, v27_at, v26_at, Ideal.hostDivf_def]

end Stages

/-- The reference's result entry (b, n, j): attention with the division first, of the three projections of batch
    element `b`'s rows, masked by that element's length word. -/
theorem ref_apply (x0 : (⟨S32x1024x256, .f32⟩ : BufTy).Contents (Elt Ideal)) (x1 : (⟨S32, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : Fin 32) (n : Fin 1024) (j : Fin 256) :
    val_main_v31 (F := Ideal) x0 x1 x2 x3 x4 x5 x6 x7 (ix3 b n j)
      = outR (lin (fun n c => x0 (ix3 b n c)) (fun c j => x2 (ix2 c j)) (fun j => x3 (ix1 j)))
          (lin (fun n c => x0 (ix3 b n c)) (fun c j => x4 (ix2 c j)) (fun j => x5 (ix1 j)))
          (lin (fun n c => x0 (ix3 b n c)) (fun c j => x6 (ix2 c j)) (fun j => x7 (ix1 j)))
          (x1 (ix1 b)) n j := by
  rw [val_main_v31_apply]
  unfold outR
  refine Finset.sum_congr rfl fun k _ => ?_
  -- the contraction reads the weights at (b, n, k) and the values at (b, k, j)
  have el : lidx_main_v31 (ix3 b n j) k = ix3 b n k := funext fun a => by match a with | ⟨0, _⟩ => rfl | ⟨1, _⟩ => rfl | ⟨2, _⟩ => rfl
  have er : ridx_main_v31 (ix3 b n j) k = ix3 b k j := funext fun a => by match a with | ⟨0, _⟩ => rfl | ⟨1, _⟩ => rfl | ⟨2, _⟩ => rfl
  rw [el, er, v30_at, v11_at]

end Cert.ReferenceIdeal.RefValue

end
-- ==== Proof.LibReal.lean ====
/-
  Finite extended reals. An extended real is FINITE when it is the image of a real number; the finite ones are closed
  under the ring operations and under finite sums, which is what lets a law of the reals (distributivity, cancelling a
  common factor) be used on values computed from finite inputs by sums and products.
-/
import Mathlib.Data.EReal.Operations
import Mathlib.Algebra.BigOperators.Group.Finset.Basic

namespace Cert

/-- `x` is a real number seen in the extended reals. -/
def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

/-- A finite sum of finite extended reals is finite. -/
theorem sum {ι : Type*} (s : Finset ι) (f : ι → EReal) (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

/-- The real number a finite extended real is. -/
noncomputable def val {x : EReal} (hx : IsReal x) : ℝ := hx.choose

theorem val_spec {x : EReal} (hx : IsReal x) : x = (hx.val : EReal) := hx.choose_spec

/-- A family of finite extended reals is the image of a family of reals. -/
theorem exists_fun {ι : Type*} (f : ι → EReal) (hf : ∀ i, IsReal (f i)) : ∃ g : ι → ℝ, f = fun i => (g i : EReal) :=
  ⟨fun i => (hf i).val, funext fun i => (hf i).val_spec⟩

theorem ne_top {x : EReal} (hx : IsReal x) : x ≠ ⊤ := by obtain ⟨a, rfl⟩ := hx; exact EReal.coe_ne_top a

theorem ne_bot {x : EReal} (hx : IsReal x) : x ≠ ⊥ := by obtain ⟨a, rfl⟩ := hx; exact EReal.coe_ne_bot a

theorem of_ne {x : EReal} (h1 : x ≠ ⊤) (h2 : x ≠ ⊥) : IsReal x := by
  induction x using EReal.rec with
  | bot => exact absurd rfl h2
  | coe r => exact ⟨r, rfl⟩
  | top => exact absurd rfl h1

end IsReal

end Cert
-- ==== Proof.Algebra.lean ====
/-
  The two arrangements of masked softmax attention agree on finite inputs.
-/
import proofs.«424928_j84799834293007_3_alg».proof.Proof.Spec
import proofs.«424928_j84799834293007_3_alg».proof.Proof.LibReal

noncomputable section

namespace Cert.MaskedAttn

open Idealize.ShloMosaic Cert

/-- An affine projection of finite rows by a finite matrix and bias is finite. -/
theorem lin_isReal {x : Fin 1024 → Fin 256 → EReal} {w : Fin 256 → Fin 256 → EReal} {b : Fin 256 → EReal}
    (hx : ∀ n c, IsReal (x n c)) (hw : ∀ c j, IsReal (w c j)) (hb : ∀ j, IsReal (b j)) (n : Fin 1024) (j : Fin 256) :
    IsReal (lin x w b n j) := by
  unfold lin
  exact IsReal.add (IsReal.sum _ _ fun c _ => IsReal.mul (hx n c) (hw c j)) (hb j)

/-- The fill value's pattern (sign 1, exponent 146, fraction 7611392) denotes the real -(2^23 + 7611392) · 2^(-4) = -10^6. -/
theorem fill_eq : Ideal.ofBits .f32 0xC9742400#32 = ((-1000000 : ℝ) : EReal) := by
  simp [Ideal.ofBits, Ideal.ieee, -EReal.coe_mul]; norm_num

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score of finite queries against finite keys is finite. -/
theorem sc_isReal {q k : Fin 1024 → Fin 256 → EReal} (hq : ∀ n j, IsReal (q n j)) (hk : ∀ n j, IsReal (k n j))
    (n m : Fin 1024) : IsReal (sc q k n m) :=
  IsReal.sum _ _ fun j _ => IsReal.mul (hq n j) (hk m j)

/-- A masked score of finite scores is finite: it is either the score or the fill value -10^6. -/
theorem msk_isReal {vl : BitVec 32} {s : Fin 1024 → Fin 1024 → EReal} (hs : ∀ n m, IsReal (s n m)) (n m : Fin 1024) :
    IsReal (msk vl s n m) := by
  unfold msk Scalar.select
  split
  · exact hs n m
  · rw [fill_eq]; exact IsReal.coe _

/-- The maximum (from -∞) of a nonempty finite family of finite extended reals is finite: it is one of them. -/
theorem fold_max_isReal {ι : Type*} (t : Finset ι) (f : ι → EReal) (hf : ∀ i ∈ t, IsReal (f i)) (hne : t.Nonempty) :
    IsReal (t.fold max (⊥ : EReal) f) := by
  classical
  induction t using Finset.induction_on with
  | empty => exact absurd hne (by simp)
  | insert a t ha ih =>
    rw [Finset.fold_insert ha]
    have h1 : IsReal (f a) := hf a (Finset.mem_insert_self a t)
    by_cases ht : t.Nonempty
    · have h2 := ih (fun i hi => hf i (Finset.mem_insert_of_mem hi)) ht
      rcases max_choice (f a) (t.fold max (⊥ : EReal) f) with h | h
      · rw [h]; exact h1
      · rw [h]; exact h2
    · rw [Finset.not_nonempty_iff_eq_empty] at ht
      subst ht
      rw [Finset.fold_empty, max_eq_left bot_le]
      exact h1

/-- On finite queries, keys and values, dividing the weighted sum by the row's sum of exponentials is summing the
    weights divided by it. -/
theorem outK_eq_outR (q k v : Fin 1024 → Fin 256 → EReal) (vl : BitVec 32)
    (hq : ∀ n j, IsReal (q n j)) (hk : ∀ n j, IsReal (k n j)) (hv : ∀ n j, IsReal (v n j)) (n : Fin 1024) (j : Fin 256) :
    outK q k v vl n j = outR q k v vl n j := by
  -- the masked scores and the row's maximum are finite
  have hs : ∀ n m, IsReal (msk vl (sc q k) n m) := fun n m => msk_isReal (fun n m => sc_isReal hq hk n m) n m
  have hmax : IsReal (rmax (msk vl (sc q k)) n) :=
    fold_max_isReal _ _ (fun m _ => hs n m) Finset.univ_nonempty
  -- each exponential is a positive real p m
  have hpe : ∀ m, ∃ r : ℝ, 0 < r ∧ pe (msk vl (sc q k)) n m = (r : EReal) := by
    intro m
    obtain ⟨a, ha⟩ := IsReal.sub (hs n m) hmax
    refine ⟨Real.exp a, Real.exp_pos a, ?_⟩
    unfold pe
    rw [ha]
    exact Ideal.exp_coe a
  choose p hp0 hp using hpe
  -- column j of the values is a real family w
  obtain ⟨w, hw⟩ := IsReal.exists_fun (fun m => v m j) (fun m => hv m j)
  have hw' : ∀ m, v m j = (w m : EReal) := fun m => congrFun hw m
  -- the row's sum of exponentials is the positive real L = ∑ p
  have hrs : rs (msk vl (sc q k)) n = ((∑ m, p m : ℝ) : EReal) := by
    unfold rs
    rw [coe_sum]
    exact Finset.sum_congr rfl fun m _ => hp m
  have hL : (∑ m, p m : ℝ) ≠ 0 := ne_of_gt (Finset.sum_pos (fun m _ => hp0 m) Finset.univ_nonempty)
  unfold outK outR
  rw [hrs]
  simp only [Ideal.div_coe hL, hp, hw']
  simp only [← EReal.coe_mul, ← coe_sum]
  -- in the reals: (∑ p·w) · (1/L) = ∑ (p · (1/L)) · w, by distributivity
  congr 1
  rw [Finset.sum_mul]
  exact Finset.sum_congr rfl fun m _ => by ring

end Cert.MaskedAttn

end
-- ==== Proof.Finite.lean ====
/-
  The precondition says every float input is finite: each entry of each float argument is a real number.
-/
import proofs.«424928_j84799834293007_3_alg».proof.Proof.Gen.Pre_finite_inputs
import proofs.«424928_j84799834293007_3_alg».proof.Proof.LibReal
import Idealize.ShloMosaic.Lib.ReduceAll
import Idealize.ShloMosaic.Lib.ValueIdx
import Idealize.ShloMosaic.PureOps.Ideal.Laws

noncomputable section

namespace Cert.FiniteInputs

open Idealize.ShloMosaic Cert Cert.Pre_finite_inputs

/-- The rank-0 shape has one index. -/
instance subsingleton_scalar_idx : Subsingleton S_.Idx := ⟨fun a b => funext fun d => d.elim0⟩

/-- The 32-bit pattern 0x7F800000 denotes +∞. -/
theorem ofBits_inf : Ideal.ofBits .f32 0x7F800000#32 = (⊤ : EReal) := by
  simp [Ideal.ofBits, Ideal.ieee]

/-- An extended real whose absolute value max x (-x) compares strictly below +∞ is a real number: at x = ⊤ and at
    x = ⊥ the maximum is ⊤, which is not below ⊤. -/
theorem isReal_of_abs_lt_top (x : EReal) (h : Ideal.cmp .olt (max x (-x)) (⊤ : EReal) = 1#1) : IsReal x := by
  have hlt : max x (-x) < (⊤ : EReal) := by
    by_contra hn
    simp [Ideal.cmp, hn] at h
  refine IsReal.of_ne ?_ ?_
  · rintro rfl
    simp at hlt
  · rintro rfl
    simp at hlt

/-- If the conjunction over all entries of "|a i| < +∞" is 1 then every entry of a is real, over an arbitrary shape: a
    reduction by "and" over all axes that is 1 has the comparison bit 1 at every index i, the broadcast scalar reads +∞
    there, and the element fact above applies. -/
theorem all_isReal {s : Shape} {axes : List (Fin s.rank)} (a : FVec Ideal s .f32) (hb : S_.BroadcastsInDim s ![])
    (hr : s.ReducesTo axes S_) (hu : 0 < S_.numel) (init : IVec S_ 1) (j : S_.Idx)
    (e : Host.reduce IntOp.andi
        (cmpf .olt (Host.absf a) (broadcastInDim s ![] hb (constant (F := Ideal) S_ .f32 0x7F800000#32))) init hr hu j = 1#1)
    (i : s.Idx) : IsReal (a i) := by
  have hi := Host.reduce_andi_all _ init hr hu j e i
  refine isReal_of_abs_lt_top (a i) ?_
  rw [← ofBits_inf]
  exact hi

/-- If the precondition's predicate holds of the eight arguments, every entry of the seven float arguments is real. -/
theorem of_pre (a0 : FVec Ideal S32x1024x256 .f32) (a1 : IVec S32 32) (a2 : FVec Ideal S256x256 .f32) (a3 : FVec Ideal S256 .f32)
    (a4 : FVec Ideal S256x256 .f32) (a5 : FVec Ideal S256 .f32) (a6 : FVec Ideal S256x256 .f32) (a7 : FVec Ideal S256 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) := by
  have h0 := congrFun h ValueIdx.ix0
  dsimp only [fn, fn_part1, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_isReal a0 _ _ _ _ _ e0, all_isReal a2 _ _ _ _ _ e2, all_isReal a3 _ _ _ _ _ e3, all_isReal a4 _ _ _ _ _ e4,
    all_isReal a5 _ _ _ _ _ e5, all_isReal a6 _ _ _ _ _ e6, all_isReal a7 _ _ _ _ _ e7⟩

end Cert.FiniteInputs

end
-- ==== Proof.lean ====
/-
  A fused masked-softmax attention kernel against its array-language reference, over the extended reals.

  Both programs project the rows of each batch element by three matrices and biases to queries, keys and values,
  take the scores q·kᵀ, replace the columns at or beyond the element's length word by the fill value -10^6, subtract
  each row's maximum, exponentiate, and weight the values by the exponentials normalised by their row sum. The kernel
  stages two batch elements per grid point, multiplies by the three matrices laid side by side, and divides the
  weighted sum by the row sum LAST; the reference normalises the weights FIRST. A change of float format is the
  identity on the extended reals, a different tiling or order of a sum changes nothing, and the two orders of division
  agree because under the precondition every input is a real number: then every score, shifted score and exponential
  is real, and the row sum is a sum of positive reals, so it is a nonzero real that may be moved across the sum.

  The frames: both printed forms of the kernel program (at words and at extended reals) run their four host operations
  and then the pipelined region, whose body's run is proved once over any float values; the reference is host
  operations only. The idealization rewrote nothing, so it is preserved trivially.
-/
import proofs.«424928_j84799834293007_3_alg».proof.Defs
import proofs.«424928_j84799834293007_3_alg».proof.Proof.Gen.Kernel
import proofs.«424928_j84799834293007_3_alg».proof.Proof.Gen.KernelIdeal
import proofs.«424928_j84799834293007_3_alg».proof.Proof.Gen.ReferenceIdeal
import proofs.«424928_j84799834293007_3_alg».proof.Proof.Gen.Pre_finite_inputs
import proofs.«424928_j84799834293007_3_alg».proof.Proof.Gen.ReferenceIdeal.Run
import proofs.«424928_j84799834293007_3_alg».proof.Proof.Gen.ReferenceIdeal.Read
import proofs.«424928_j84799834293007_3_alg».proof.Proof.BitsRun
import proofs.«424928_j84799834293007_3_alg».proof.Proof.IdealRun
import proofs.«424928_j84799834293007_3_alg».proof.Proof.Final
import proofs.«424928_j84799834293007_3_alg».proof.Proof.RefSide
import proofs.«424928_j84799834293007_3_alg».proof.Proof.Algebra
import proofs.«424928_j84799834293007_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.MaskedAttn

/-- The word-level kernel program runs and leaves its arguments as launched. -/
theorem frame_k : Cert.frame_Kernel := fun m ρ _ => Cert.Kernel.Frm.frame m ρ

/-- The idealized kernel program runs and leaves its arguments as launched. -/
theorem frame_ki : Cert.frame_KernelIdeal := fun m ρ _ => Cert.KernelIdeal.Frm.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At every index the reference's result is the kernel's: attention with the division first is attention with the
    division last when the queries, keys and values are finite, as projections of finite inputs are. -/
theorem pointwise (m : (ℓ : Loc Cert.KernelIdeal.nD Cert.KernelIdeal.τ Cert.KernelIdeal.sig) → Buf (Elt Ideal) ℓ) (c : Dev Cert.KernelIdeal.nD)
    (f0 : ∀ i, Cert.IsReal (m ((c.tc : Thread Cert.KernelIdeal.nD Cert.KernelIdeal.τ).loc Cert.KernelIdeal.main_arg0) i))
    (f2 : ∀ i, Cert.IsReal (m ((c.tc : Thread Cert.KernelIdeal.nD Cert.KernelIdeal.τ).loc Cert.KernelIdeal.main_arg2) i))
    (f3 : ∀ i, Cert.IsReal (m ((c.tc : Thread Cert.KernelIdeal.nD Cert.KernelIdeal.τ).loc Cert.KernelIdeal.main_arg3) i))
    (f4 : ∀ i, Cert.IsReal (m ((c.tc : Thread Cert.KernelIdeal.nD Cert.KernelIdeal.τ).loc Cert.KernelIdeal.main_arg4) i))
    (f5 : ∀ i, Cert.IsReal (m ((c.tc : Thread Cert.KernelIdeal.nD Cert.KernelIdeal.τ).loc Cert.KernelIdeal.main_arg5) i))
    (f6 : ∀ i, Cert.IsReal (m ((c.tc : Thread Cert.KernelIdeal.nD Cert.KernelIdeal.τ).loc Cert.KernelIdeal.main_arg6) i))
    (f7 : ∀ i, Cert.IsReal (m ((c.tc : Thread Cert.KernelIdeal.nD Cert.KernelIdeal.τ).loc Cert.KernelIdeal.main_arg7) i))
    (b : Fin 32) (n : Fin 1024) (j : Fin 256) :
    Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (ix3 b n j)
      = Cert.KernelIdeal.Val.G m c (ix3 b n j) := by
  rw [Cert.ReferenceIdeal.RefValue.ref_apply]
  exact (outK_eq_outR _ _ _ _
    (lin_isReal (fun n cc => f0 _) (fun cc j => f2 _) (fun j => f3 _))
    (lin_isReal (fun n cc => f0 _) (fun cc j => f4 _) (fun j => f5 _))
    (lin_isReal (fun n cc => f0 _) (fun cc j => f6 _) (fun j => f7 _)) n j).symm

/-- From memories that agree on the arguments both programs end with the same result: the kernel's array is attention
    with the division last, the reference's attention with the division first, of the same finite projections. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨f0, f2, f3, f4, f5, f6, f7⟩ := Cert.FiniteInputs.of_pre _ _ _ _ _ _ _ _ (hpre c)
  rw [Cert.ReferenceIdeal.Read.val_main_v31_eq, h0, h1, h2, h3, h4, h5, h6, h7]
  funext i
  obtain ⟨b, n, j, rfl⟩ : ∃ (b : Fin 32) (n : Fin 1024) (j : Fin 256), i = ix3 b n j := ⟨i 0, i 1, i 2, eq_ix3 i⟩
  exact pointwise m c f0 f2 f3 f4 f5 f6 f7 b n j

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
